-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x640000 : Shape := ⟨2, ![2, 640000]⟩
abbrev S2000x128 : Shape := ⟨2, ![2000, 128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 77
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x640000, .i32⟩
  | .hbm, ⟨6, _⟩ => ⟨S50000x128, .f32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  dot_S2000x128_S128x128_S2000x128_1_0_0_1_n_n_wf : DotDims.WF S2000x128 S128x128 S2000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x640000, .i32⟩
  | .hbm, ⟨6, _⟩ => ⟨S50000x128, .f32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.Spec.lean ====
/-
  The mathematics of one graph-convolution layer followed by batch normalisation, as both programs compute it.

  Nodes are numbered below 50000 and carry 128 features.  With X the node features, W a 128 x 128 weight, b a bias,
  gamma and beta the normalisation's scale and shift, and E the edge list (two rows of 640000 node numbers, to which a
  self-loop per node is appended):

    P   = X W                                        (the projection, `proj`)
    A   = the normalised aggregation of P's rows over the edges (`aggregate`): with deg the number of edges
          arriving at a node and dinv = deg^(-1/2) where deg > 0 and 0 elsewhere, the row of node v is the sum over
          the edges (u, v) of dinv u * dinv v * P u
    H   = A + b                                      (`biased`)
    mu  = the column means of H                      (`mean`)
    var = the columns' variances of H, written either as the mean of the squares minus the square of the mean
          (`varMoments`) or as the mean of the squared deviations from the mean (`varCentred`)
    out = X + max ((H - mu) * (var + eps)^(-1/2) * gamma + beta, 0)      (`normalized`)

  The aggregation is stated once, for any float instance, as the composition of index arithmetic, two gathers and
  two accumulating scatters; the dense part is stated over the extended reals, index by index.
-/
import Idealize.ShloMosaic.PureOps.Ideal
import Idealize.ShloMosaic.PureOps.Vector
import Idealize.ShloMosaic.PureOps.Contract
import Idealize.ShloMosaic.PureOps.ShapeOps
import Idealize.ShloMosaic.Lib.ValueIdx

noncomputable section

namespace Spec

open Idealize.ShloMosaic Idealize.ShloMosaic.ValueIdx

/-! ## Shapes -/

abbrev SNxD : Shape := ⟨2, ![50000, 128]⟩
abbrev SDxD : Shape := ⟨2, ![128, 128]⟩
abbrev SN : Shape := ⟨1, ![50000]⟩
abbrev S2xE : Shape := ⟨2, ![2, 640000]⟩
abbrev S1xE : Shape := ⟨2, ![1, 640000]⟩
abbrev SE : Shape := ⟨1, ![640000]⟩
abbrev SM : Shape := ⟨1, ![690000]⟩
abbrev SMx1 : Shape := ⟨2, ![690000, 1]⟩
abbrev SMxD : Shape := ⟨2, ![690000, 128]⟩
abbrev S0 : Shape := ⟨0, ![]⟩

/-! ## The aggregation over the edges, at any float instance -/

section Aggregate

variable {F : FTy → Type} [FloatOps F]

/-- One count per arriving edge lands on the edge's target node. -/
def scatterCount : ScatterDims SN SMx1 SM where
  updateWindowDims := []
  insertedWindowDims := [0]
  scatterDimsToOperandDims := [0]
  indexVectorDim := 1
  wf := by decide

/-- A per-node number read at each edge's end. -/
def gatherNode : GatherDims SN SMx1 SM where
  offsetDims := []
  collapsedSliceDims := [0]
  operandBatchingDims := []
  startIndicesBatchingDims := []
  startIndexMap := [0]
  indexVectorDim := 1
  sliceSizes := ![1]
  wf := by decide

/-- A node's whole feature row read at each edge's source. -/
def gatherRow : GatherDims SNxD SMx1 SMxD where
  offsetDims := [1]
  collapsedSliceDims := [0]
  operandBatchingDims := []
  startIndicesBatchingDims := []
  startIndexMap := [0]
  indexVectorDim := 1
  sliceSizes := ![1, 128]
  wf := by decide

/-- An edge's whole message row added onto the edge's target node. -/
def scatterRow : ScatterDims SNxD SMx1 SMxD where
  updateWindowDims := [1]
  insertedWindowDims := [0]
  scatterDimsToOperandDims := [0]
  indexVectorDim := 1
  wf := by decide

/-- Row `r` of the edge list followed by every node's own number: the edges' ends with the self-loops appended. -/
def ends0 (e : IVec S2xE 32) : IVec SM 32 :=
  concatenate SM 0 [⟨SE, (shapeCast _ (extractStridedSlice S1xE ![0, 0] e (by decide)) (by decide))⟩, ⟨SN, (iotaInDim SN 32 0)⟩] (by decide : Shape.Concatenates [SE, SN] SM 0)

def ends1 (e : IVec S2xE 32) : IVec SM 32 :=
  concatenate SM 0 [⟨SE, (shapeCast _ (extractStridedSlice S1xE ![1, 0] e (by decide)) (by decide))⟩, ⟨SN, (iotaInDim SN 32 0)⟩] (by decide : Shape.Concatenates [SE, SN] SM 0)

/-- A negative node number counts from the end. -/
def wrap (v : IVec SM 32) : IVec SM 32 :=
  select (cmpi .slt v (broadcastInDim SM ![] (by decide) (constantI S0 32 0#32)))
    (addi v (broadcastInDim SM ![] (by decide) (constantI S0 32 50000#32))) v

/-- A list of node numbers as a column of one-component index vectors. -/
def column {α : Type} (v : SM.Idx → α) : SMx1.Idx → α := broadcastInDim SMx1 ![0] (by decide) v

/-- The number of edges arriving at each node. -/
def degree (e : IVec S2xE 32) : FVec F SN .f32 :=
  Host.scatterAdd scatterCount (broadcastInDim SN ![] (by decide) (constant S0 .f32 0x00000000#32)) (column (ends1 e))
    (broadcastInDim SM ![] (by decide) (constant S0 .f32 0x3F800000#32))

/-- The inverse square root of the degree where it is positive, zero elsewhere. -/
def invSqrtDegree (e : IVec S2xE 32) : FVec F SN .f32 :=
  select (cmpf .ogt (degree (F := F) e) (broadcastInDim SN ![] (by decide) (constant S0 .f32 0x00000000#32)))
    (Host.rsqrt (degree (F := F) e)) (broadcastInDim SN ![] (by decide) (id (constant S0 .f32 0x00000000#32)))

/-- Each edge's weight: the product of its two ends' inverse square-root degrees. -/
def edgeWeight (e : IVec S2xE 32) : FVec F SM .f32 :=
  mulf (Host.gather gatherNode (invSqrtDegree (F := F) e) (column (wrap (ends0 e))))
    (Host.gather gatherNode (invSqrtDegree (F := F) e) (column (wrap (ends1 e))))

/-- The aggregation: each node's row is the sum, over the edges arriving at it, of the source's row of `p` times the
    edge's weight. -/
def aggregate (p : FVec F SNxD .f32) (e : IVec S2xE 32) : FVec F SNxD .f32 :=
  Host.scatterAdd scatterRow (broadcastInDim SNxD ![] (by decide) (constant S0 .f32 0x00000000#32)) (column (ends1 e))
    (mulf (Host.gather gatherRow p (column (wrap (ends0 e))))
      (broadcastInDim SMxD ![0, 1] (by decide) (column (edgeWeight (F := F) e))))

end Aggregate

/-! ## The dense part, over the extended reals -/

/-- The number of nodes, 50000, as the float both programs divide by. -/
abbrev nodes : EReal := Ideal.ofBits .f32 0x47435000#32
/-- The normalisation's epsilon, the float nearest 1e-5. -/
abbrev eps : EReal := Ideal.ofBits .f32 0x3727C5AC#32
/-- The float zero. -/
abbrev zero : EReal := Ideal.ofBits .f32 0x00000000#32

/-- Every entry of an array is a real number (neither infinity). -/
def RealValued {s : Shape} (f : s.Idx → EReal) : Prop := ∀ i, ∃ r : ℝ, f i = (r : EReal)

/-- The projection `X W`: entry `(p, q)` is the sum over `k` of `X (p, k) * W (k, q)`. -/
def proj (X : SNxD.Idx → EReal) (W : SDxD.Idx → EReal) : SNxD.Idx → EReal :=
  fun i => ∑ k : Fin 128, X (ix2 (i 0) k) * W (ix2 k (i 1))

/-- A per-feature bias added to every node's row. -/
def biased (A : SNxD.Idx → EReal) (b : Fin 128 → EReal) : SNxD.Idx → EReal :=
  fun i => A i + b (i 1)

/-- The sum of a column over all nodes. -/
def colSum (f : SNxD.Idx → EReal) (q : Fin 128) : EReal := ∑ p : Fin 50000, f (ix2 p q)

/-- The column means. -/
def mean (H : SNxD.Idx → EReal) (q : Fin 128) : EReal := Ideal.div (colSum H q) nodes

/-- The columns' variances as the mean of the squares minus the square of the mean. -/
def varMoments (H : SNxD.Idx → EReal) (q : Fin 128) : EReal :=
  Ideal.div (colSum (fun i => H i * H i) q) nodes - mean H q * mean H q

/-- The columns' variances as the mean of the squared deviations from the mean. -/
def varCentred (H : SNxD.Idx → EReal) (q : Fin 128) : EReal :=
  Ideal.div (colSum (fun i => (H i - mean H (i 1)) * (H i - mean H (i 1))) q) nodes

/-- Normalise each column by a mean and a variance, scale, shift, clamp below at zero, and add the residual. -/
def normalized (X H : SNxD.Idx → EReal) (mu var ga be : Fin 128 → EReal) : SNxD.Idx → EReal :=
  fun i => X i + max ((H i - mu (i 1)) * Ideal.rsqrt (var (i 1) + eps) * ga (i 1) + be (i 1)) zero

end Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KReg0.lean ====
/-
  The first kernel region computes the projection: its output array, assembled from the 25 row blocks of 2000 nodes
  each, holds at (p, q) the sum over k of X (p, k) * W (k, q).
-/
import proofs.«151737_j55224689492697_1_alg».proof.Proof.Gen.KernelIdeal.Frame
import proofs.«151737_j55224689492697_1_alg».proof.Proof.Spec
import proofs.«151737_j55224689492697_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## One block's product, entry by entry -/

/-- Every load and the store of the body start at the corner of their buffer: the offset pair is zero on both axes. -/
theorem projZeroOffsets : (![0, 0] : Fin 2 → Nat) = fun _ => 0 := funext fun a => by fin_cases a <;> rfl

/-- What the body stores, read at row `p` and column `q` of the block: narrowing to the shorter float format changes
    no extended real, the accumulator starts at zero, and the contraction runs over the one shared axis of length 128,
    so the entry is the sum over `k` of `x0 (p, k) * x1 (k, q)`. -/
theorem projProduct_apply (x0 : Vec Ideal S2000x128 .f32) (x1 : Vec Ideal S128x128 .f32) (p : Fin 2000) (q : Fin 128) :
    (k0_pay1 (F := Ideal) x0 x1 : S2000x128.Idx → EReal) (ix2 p q)
      = ∑ k : Fin 128, (x0 : S2000x128.Idx → EReal) (ix2 p k) * (x1 : S128x128.Idx → EReal) (ix2 k q) := by
  unfold k0_pay1
  refine (Ideal.matmul_constant_zero_apply _ none _ _ (ix2 p q)).trans ?_
  exact PlainDot.sum_eq (R := 2000) (K := 128) (C := 128) dot_S2000x128_S128x128_S2000x128_1_0_0_1_n_n rfl rfl rfl rfl rfl rfl
    (x0 : S2000x128.Idx → EReal) (x1 : S128x128.Idx → EReal) p q

/-- If row `j 0` of the feature block is row `i 0` of `X`, and column `j 1` of the weight block is column `i 1` of
    `W`, then the stored block at `j` is the projection `X W` at `i`: the two sums agree term by term. -/
theorem projProduct_eq (X : Spec.SNxD.Idx → EReal) (W : Spec.SDxD.Idx → EReal)
    (x0 : Vec Ideal S2000x128 .f32) (x1 : Vec Ideal S128x128 .f32) (j : S2000x128.Idx) (i : Spec.SNxD.Idx)
    (h0 : ∀ k : Fin 128, (x0 : S2000x128.Idx → EReal) (ix2 (j 0) k) = X (ix2 (i 0) k))
    (h1 : ∀ k : Fin 128, (x1 : S128x128.Idx → EReal) (ix2 k (j 1)) = W (ix2 k (i 1))) :
    (k0_pay1 (F := Ideal) x0 x1 : S2000x128.Idx → EReal) j = Spec.proj X W i := by
  obtain ⟨p, q, rfl⟩ : ∃ (p : Fin 2000) (q : Fin 128), j = ix2 p q := ⟨j 0, j 1, eq_ix2 j⟩
  refine (projProduct_apply x0 x1 p q).trans ?_
  exact Finset.sum_congr rfl fun k _ => congrArg₂ (· * ·) (h0 k) (h1 k)

/-! ## Where the blocks sit in their arrays -/

/-- The block numbers at grid point `t`: the features' block and the result's block are both row block `t`, in the
    only column block; the weight's block is always the whole weight. -/
theorem projBlock_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The feature block at point `t` is rows `2000 t … 2000 t + 1999` of `X`: a coordinate inside a block sits in the
    array at the block number times the block's extent plus that coordinate. -/
theorem projFeatureBlock_apply (c : Dev nD) (t : Fin cfg0.N) (y : S2000x128.Idx) (i : S50000x128.Idx)
    (h0 : (i 0).val = t.val * 2000 + (y 0).val) (h1 : (i 1).val = (y 1).val) :
    (iblk0 (V0 (F := Ideal) m ρ) c 0 t : Vec Ideal S2000x128 .f32) y
      = (V0 (F := Ideal) m ρ c main_arg0 : S50000x128.Idx → EReal) i := by
  obtain ⟨e0, e1, -, -, e4, -⟩ := projBlock_facts t
  unfold iblk0
  rw [View.read_apply]
  show V0 m ρ c main_arg0 _ = V0 m ρ c main_arg0 _
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The weight block at every point is the whole of `W`. -/
theorem projWeightBlock_apply (c : Dev nD) (t : Fin cfg0.N) (y : S128x128.Idx) :
    (iblk0 (V0 (F := Ideal) m ρ) c 1 t : Vec Ideal S128x128 .f32) y
      = (V0 (F := Ideal) m ρ c main_arg1 : S128x128.Idx → EReal) y := by
  obtain ⟨-, -, e2, e3, -, -⟩ := projBlock_facts t
  unfold iblk0
  rw [View.read_apply]
  show V0 m ρ c main_arg1 _ = V0 m ρ c main_arg1 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-! ## From the 25 blocks to the whole array -/

/-- What point `t` writes back is row block `t` of `X W`: entry `j` of the block sits at row `2000 t + j 0`, column
    `j 1` of the array; the feature block supplies exactly that row of `X` and the weight block every column of `W`. -/
theorem projWritten_eq (c : Dev nD) (t : Fin cfg0.N) :
    (dat0 (V0 (F := Ideal) m ρ) c).flushed 2 t
      = ((cfg0.win 2).blk t).view.read (Elt Ideal)
          (Spec.proj (V0 (F := Ideal) m ρ c main_arg0) (V0 (F := Ideal) m ρ c main_arg1)) := by
  show (cfg0.win 2).cut (grid0.coords t) ((dat0 (V0 (F := Ideal) m ρ) c).after 2 t) = _
  rw [after0_2]
  unfold out0_2
  rw [View.canon_unit_zero projZeroOffsets]
  simp only [View.ld_unit_zero (S := S2000x128) projZeroOffsets, View.ld_unit_zero (S := S128x128) projZeroOffsets]
  funext j
  show (k0_pay1 (F := Ideal) (iblk0 (V0 (F := Ideal) m ρ) c 0 t) (iblk0 (V0 (F := Ideal) m ρ) c 1 t) : S2000x128.Idx → EReal) j
    = Spec.proj (V0 (F := Ideal) m ρ c main_arg0) (V0 (F := Ideal) m ρ c main_arg1) (((cfg0.win 2).blk t).view.emb j)
  obtain ⟨-, -, -, -, e4, e5⟩ := projBlock_facts t
  refine projProduct_eq _ _ _ _ j _ (fun k => ?_) (fun k => ?_)
  · refine projFeatureBlock_apply m ρ c t _ _ ?_ rfl
    show win0_2.index t (0 : Fin 2) * 2000 + 1 * (j 0).val = t.val * 2000 + (j 0).val
    omega
  · refine (projWeightBlock_apply m ρ c t _).trans
      (congrArg (fun z : Fin 128 => (V0 (F := Ideal) m ρ c main_arg1 : S128x128.Idx → EReal) (ix2 k z)) (Fin.ext ?_))
    show (j 1).val = win0_2.index t (1 : Fin 2) * 128 + 1 * (j 1).val
    omega

/-- An index of the array lies in point `t`'s block iff, on each axis, its coordinate lies in the block's range. -/
theorem projMem_block (t : Fin cfg0.N) (i : S50000x128.Idx) :
    i ∈ ((cfg0.win 2).blk t).view.set
      ↔ ∀ a : Fin 2, win0_2.index t a * S2000x128.size a ≤ (i a).val
          ∧ (i a).val < win0_2.index t a * S2000x128.size a + S2000x128.size a := by
  show i ∈ ((View.whole main_v0).slice (win0_2.rect t)).set ↔ _
  rw [View.set_slice_whole, Rect.mem_set_unit]
  exact Iff.rfl

/-- The 25 row blocks tile the 50000 rows: row `r` lies in block `r / 2000`, and every point writes its block back. -/
theorem projCovered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := lt_of_lt_of_eq (by omega : (i 0).val / 2000 < 25) N_0.symm
  obtain ⟨-, -, -, -, e4, e5⟩ := projBlock_facts ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [projMem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- After the first region the projection's array holds `X W`. -/
theorem region0 (c : Dev nD) :
    (W1 (F := Ideal) m ρ c (Proc.devRef .tc main_v0) : Spec.SNxD.Idx → EReal)
      = Spec.proj (V0 (F := Ideal) m ρ c main_arg0) (V0 (F := Ideal) m ρ c main_arg1) :=
  -- every point writes its row block of `X W`, and the blocks cover the array, so the array ends as `X W`
  (W1_arr m ρ c 2).trans
    ((dat0 (V0 (F := Ideal) m ρ) c).arrAt_eq_of_cover 2 _ (fun t _ => projWritten_eq m ρ c t) projCovered)

end Cert.KernelIdeal.Val

end
-- ==== Proof.KReg1.lean ====
/-
  The second kernel region accumulates, over the 25 row blocks, the column sums of the biased aggregation and of its
  squares: after the last block each accumulator holds the sum over all 50000 nodes.
-/
import proofs.«151737_j55224689492697_1_alg».proof.Proof.Gen.KernelIdeal.Frame
import proofs.«151737_j55224689492697_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

namespace Reg1

section Pieces
variable {F : FTy → Type} [FloatOps F]

/-- Both spellings of the zero offsets. -/
theorem hz : (![0, 0] : Fin 2 → Nat) = fun _ => 0 := funext fun a => by fin_cases a <;> rfl

/-- At the first point the body stores the zero row into the first accumulator, reads it back, and stores the update
    of what it read: the buffer is left at the update of the zero row. -/
theorem pieceA2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S2000x128) hz, View.ld_unit_zero (S := S1x128) hz]

/-- Likewise the second accumulator, with the update that sums squares. -/
theorem pieceA3 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S2000x128) hz, View.ld_unit_zero (S := S1x128) hz]

/-- At a later point nothing is reset: the buffer is left at the update of what it held. -/
theorem pieceB2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero (S := S1x128) hz]
  simp only [View.readAt_eq_ld, h1.read_unread, h2.read_unread, h3.read_unread, h4.read_unread, View.ld_unit_zero (S := S2000x128) hz, View.ld_unit_zero (S := S1x128) hz]

/-- Likewise the second accumulator. -/
theorem pieceB3 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero (S := S1x128) hz]
  simp only [View.readAt_eq_ld, h1.read_unread, h2.read_unread, h3.read_unread, h4.read_unread, View.ld_unit_zero (S := S2000x128) hz, View.ld_unit_zero (S := S1x128) hz]

end Pieces

section AtIdeal

/-- An index of the lane sum's source, rebuilt from the kept lane and the summed row. -/
theorem lift_eq (q : Fin 128) (r : Fin 2000) :
    reduces_S2000x128_S128.lift (ix1 q) r = (ix2 r q : S2000x128.Idx) := by
  funext a
  match a with
  | ⟨0, _⟩ => exact Fin.ext rfl
  | ⟨1, _⟩ => exact Fin.ext rfl

/-- The sum of a block over its rows, lane by lane, is the sum over the 2000 row numbers. -/
theorem laneSum (src : FVec Ideal S2000x128 .f32) (hφ : FKind.Formats .f32)
    (hacc : (0x00000000#32 : BitVec 32) = 0x00000000#32) (q : Fin 128) :
    multiReduction (F := Ideal) .add [0] S128 src 0x00000000#32 reduces_S2000x128_S128 hφ hacc (ix1 q)
      = ∑ r : Fin 2000, src (ix2 r q) :=
  (Ideal.multiReduction_add_single src 0x00000000#32 reduces_S2000x128_S128 hφ hacc (ix1 q)).trans
    (Finset.sum_congr rfl fun r _ => congrArg src (lift_eq q r))

/-- The biased block: entry (r, q) is the block's entry plus the bias row's entry at q. -/
theorem pay3_apply (x0 : FVec Ideal S2000x128 .f32) (x1 : FVec Ideal S1x128 .f32) (r : Fin 2000) (q : Fin 128) :
    k1_pay3 (F := Ideal) x0 x1 (ix2 r q) = x0 (ix2 r q) + x1 (ix2 0 q) := by
  unfold k1_pay3
  show shapeCast S2000x128 x0 _ (ix2 r q) + broadcastTo S2000x128 (shapeCast S1x128 x1 _) _ (ix2 r q) = _
  rw [shapeCast_self, shapeCast_self, broadcastTo_1b_ab_apply]

/-- The first accumulator's update: the old entry plus the block's column sum of the biased entries. -/
theorem pay4_apply (x0 : FVec Ideal S2000x128 .f32) (x1 acc : FVec Ideal S1x128 .f32) (q : Fin 128) :
    k1_pay4 (F := Ideal) x0 x1 acc (ix2 0 q) = acc (ix2 0 q) + ∑ r : Fin 2000, (x0 (ix2 r q) + x1 (ix2 0 q)) := by
  unfold k1_pay4
  show shapeCast S1x128 acc _ (ix2 0 q) + shapeCast S1x128 (multiReduction (F := Ideal) .add [0] S128 (k1_pay3 x0 x1) 0x00000000#32 reduces_S2000x128_S128 (.inl rfl) rfl) shapeCasts_S128_S1x128 (ix2 0 q) = _
  rw [shapeCast_self, shapeCast_a_1a_apply]
  refine congrArg (acc (ix2 0 q) + ·) ((laneSum _ _ _ q).trans (Finset.sum_congr rfl fun r _ => ?_))
  exact pay3_apply x0 x1 r q

/-- The second accumulator's update: the old entry plus the block's column sum of the squared biased entries. -/
theorem pay5_apply (x0 : FVec Ideal S2000x128 .f32) (x1 acc : FVec Ideal S1x128 .f32) (q : Fin 128) :
    k1_pay5 (F := Ideal) x0 x1 acc (ix2 0 q)
      = acc (ix2 0 q) + ∑ r : Fin 2000, (x0 (ix2 r q) + x1 (ix2 0 q)) * (x0 (ix2 r q) + x1 (ix2 0 q)) := by
  unfold k1_pay5
  show shapeCast S1x128 acc _ (ix2 0 q) + shapeCast S1x128 (multiReduction (F := Ideal) .add [0] S128 (mulf (k1_pay3 x0 x1) (k1_pay3 x0 x1)) 0x00000000#32 reduces_S2000x128_S128 (.inl rfl) rfl) shapeCasts_S128_S1x128 (ix2 0 q) = _
  rw [shapeCast_self, shapeCast_a_1a_apply]
  refine congrArg (acc (ix2 0 q) + ·) ((laneSum _ _ _ q).trans (Finset.sum_congr rfl fun r _ => ?_))
  rw [mulf_apply, pay3_apply]

/-- The reset stores the float zero, which is the extended real 0. -/
theorem pay1_apply (j : S1x128.Idx) : k1_pay1 (F := Ideal) j = 0 := by
  unfold k1_pay1
  exact Ideal.ofBits_zero_f32
/-- The same for the second accumulator's reset. -/
theorem pay2_apply (j : S1x128.Idx) : k1_pay2 (F := Ideal) j = 0 := by
  unfold k1_pay2
  exact Ideal.ofBits_zero_f32

end AtIdeal

section BlockReads
variable {F : FTy → Type} [FloatOps F]
variable (V : (c : Dev nD) → (b : Ref sig .tc) → Buf (Elt F) ((c : Thread nD τ).loc b))

/-- The row window's block number at point t is t itself on the row axis and 0 on the lane axis; the bias window's
    is 0 on both. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)

/-- Row r of the row window's block at point t is row 2000 t + r of the aggregation array. -/
theorem rowBlock_apply (c : Dev nD) (t : Fin cfg1.N) (r : Fin 2000) (q : Fin 128) (p : Fin 50000)
    (hp : p.val = 2000 * t.val + r.val) :
    (iblk1 V c 0 t : Vec F S2000x128 .f32) (ix2 r q) = (V c main_v43 : Vec F S50000x128 .f32) (ix2 p q) := by
  show V c main_v43 (((cfg1.win 0).blk t).view.emb (ix2 r q)) = V c main_v43 (ix2 p q)
  refine congrArg _ (funext fun a => Fin.ext ?_)
  match a with
  | ⟨0, _⟩ => show win1_0.index t 0 * 2000 + 1 * r.val = p.val; rw [(idx1_0 t).1, hp]; omega
  | ⟨1, _⟩ => show win1_0.index t 1 * 128 + 1 * q.val = q.val; rw [(idx1_0 t).2]; omega

/-- The bias window shows the whole bias row at every point. -/
theorem biasBlock_apply (c : Dev nD) (t : Fin cfg1.N) (q : Fin 128) :
    (iblk1 V c 1 t : Vec F S1x128 .f32) (ix2 0 q) = (V c main_v44 : Vec F S1x128 .f32) (ix2 0 q) := by
  show V c main_v44 (((cfg1.win 1).blk t).view.emb (ix2 0 q)) = V c main_v44 (ix2 0 q)
  refine congrArg _ (funext fun a => Fin.ext ?_)
  match a with
  | ⟨0, _⟩ => show win1_1.index t 0 * 1 + 1 * 0 = 0; rw [(idx1_1 t).1]
  | ⟨1, _⟩ => show win1_1.index t 1 * 128 + 1 * q.val = q.val; rw [(idx1_1 t).2]; omega

end BlockReads

section Invariant
variable (V : (c : Dev nD) → (b : Ref sig .tc) → Buf (Elt Ideal) ((c : Thread nD τ).loc b))

/-- The blocks the two input windows show at a point: 2000 rows of the aggregation array, and the bias row. -/
abbrev rows (c : Dev nD) (t : Fin cfg1.N) : FVec Ideal S2000x128 .f32 := iblk1 V c 0 t
abbrev bias (c : Dev nD) (t : Fin cfg1.N) : FVec Ideal S1x128 .f32 := iblk1 V c 1 t

/-- What point s adds to column q of an accumulator: the sum, over the block's rows, of g of the biased entry
    (nothing past the grid). -/
def blockTerm (g : EReal → EReal) (c : Dev nD) (q : Fin 128) (s : ℕ) : EReal :=
  if h : s < cfg1.N then ∑ r : Fin 2000, g (rows V c ⟨s, h⟩ (ix2 r q) + bias V c ⟨s, h⟩ (ix2 0 q)) else 0

theorem blockTerm_of_lt (g : EReal → EReal) (c : Dev nD) (q : Fin 128) (s : ℕ) (h : s < cfg1.N) :
    blockTerm V g c q s = ∑ r : Fin 2000, g (rows V c ⟨s, h⟩ (ix2 r q) + bias V c ⟨s, h⟩ (ix2 0 q)) := by
  unfold blockTerm; exact dif_pos h

/-- A quantity that is 0 + b 0 at the first point and grows by b (n + 1) at each later one is the sum of b over the
    points so far. -/
theorem fold_sum {N : ℕ} (f : (n : ℕ) → n < N → EReal) (b : ℕ → EReal)
    (h0 : ∀ h, f 0 h = 0 + b 0)
    (hs : ∀ n (h : n + 1 < N), f (n + 1) h = f n (Nat.lt_of_succ_lt h) + b (n + 1)) :
    ∀ n (h : n < N), f n h = ∑ s ∈ Finset.range (n + 1), b s
  | 0, h => by rw [h0, zero_add, Finset.sum_range_one]
  | n + 1, h => by rw [hs, fold_sum f b h0 hs n, Finset.sum_range_succ _ (n + 1)]

/-- At the first point the first accumulator is reset and takes the block's column sums. -/
theorem first2 (c : Dev nD) (t : Fin cfg1.N) (h0 : t.val % 25 = 0) (q : Fin 128) :
    (outsAt1 V c t.val t.isLt).1 (ix2 0 q) = 0 + ∑ r : Fin 2000, (rows V c t (ix2 r q) + bias V c t (ix2 0 q)) := by
  rw [outsAt1_A V c t h0]
  dsimp only
  refine (congrFun (pieceA2 (F := Ideal) c (grid1.coords t) (ms1_0 t) (hs1_0 t) (ms1_1 t) (hs1_1 t) (ms1_2 t) (hs1_2 t) (ms1_3 t) (hs1_3 t) ((hcond1_0 t).mpr h0) (rows V c t) (bias V c t)) (ix2 0 q)).trans ?_
  rw [pay4_apply, pay1_apply]

/-- At a later point it grows by the block's column sums. -/
theorem next2 (c : Dev nD) (t : Fin cfg1.N) (h0 : ¬t.val % 25 = 0) (q : Fin 128) :
    (outsAt1 V c t.val t.isLt).1 (ix2 0 q)
      = (outsAt1 V c (t.val - 1) (Nat.lt_of_le_of_lt (Nat.sub_le _ _) t.isLt)).1 (ix2 0 q)
        + ∑ r : Fin 2000, (rows V c t (ix2 r q) + bias V c t (ix2 0 q)) := by
  rw [outsAt1_B V c t h0]
  dsimp only
  refine (congrFun (pieceB2 (F := Ideal) c (grid1.coords t) (ms1_0 t) (hs1_0 t) (ms1_1 t) (hs1_1 t) (ms1_2 t) (hs1_2 t) (ms1_3 t) (hs1_3 t) (fun h => h0 ((hcond1_0 t).mp h)) (rows V c t) (bias V c t) (outsAt1 V c (t.val - 1) (Nat.lt_of_le_of_lt (Nat.sub_le _ _) t.isLt)).1 (outsAt1 V c (t.val - 1) (Nat.lt_of_le_of_lt (Nat.sub_le _ _) t.isLt)).2) (ix2 0 q)).trans ?_
  rw [pay4_apply]

/-- So after point n the first accumulator holds the column sums of the blocks 0 … n. -/
theorem acc2 (c : Dev nD) (q : Fin 128) : ∀ n (h : n < cfg1.N),
    (outsAt1 V c n h).1 (ix2 0 q) = ∑ s ∈ Finset.range (n + 1), blockTerm V (fun x => x) c q s := by
  have hN : cfg1.N = 25 := N_1
  refine fold_sum (fun n h => (outsAt1 V c n h).1 (ix2 0 q)) (blockTerm V (fun x => x) c q) (fun h => ?_) (fun n h => ?_)
  · refine (first2 V c ⟨0, h⟩ rfl q).trans (congrArg (0 + ·) ?_)
    exact (blockTerm_of_lt V (fun x => x) c q 0 h).symm
  · refine (next2 V c ⟨n + 1, h⟩ (by dsimp only; omega) q).trans (congrArg₂ (· + ·) rfl ?_)
    exact (blockTerm_of_lt V (fun x => x) c q (n + 1) h).symm

/-- The same three facts for the second accumulator, which sums the squares. -/
theorem first3 (c : Dev nD) (t : Fin cfg1.N) (h0 : t.val % 25 = 0) (q : Fin 128) :
    (outsAt1 V c t.val t.isLt).2 (ix2 0 q)
      = 0 + ∑ r : Fin 2000, (rows V c t (ix2 r q) + bias V c t (ix2 0 q)) * (rows V c t (ix2 r q) + bias V c t (ix2 0 q)) := by
  rw [outsAt1_A V c t h0]
  dsimp only
  refine (congrFun (pieceA3 (F := Ideal) c (grid1.coords t) (ms1_0 t) (hs1_0 t) (ms1_1 t) (hs1_1 t) (ms1_2 t) (hs1_2 t) (ms1_3 t) (hs1_3 t) ((hcond1_0 t).mpr h0) (rows V c t) (bias V c t)) (ix2 0 q)).trans ?_
  rw [pay5_apply, pay2_apply]

theorem next3 (c : Dev nD) (t : Fin cfg1.N) (h0 : ¬t.val % 25 = 0) (q : Fin 128) :
    (outsAt1 V c t.val t.isLt).2 (ix2 0 q)
      = (outsAt1 V c (t.val - 1) (Nat.lt_of_le_of_lt (Nat.sub_le _ _) t.isLt)).2 (ix2 0 q)
        + ∑ r : Fin 2000, (rows V c t (ix2 r q) + bias V c t (ix2 0 q)) * (rows V c t (ix2 r q) + bias V c t (ix2 0 q)) := by
  rw [outsAt1_B V c t h0]
  dsimp only
  refine (congrFun (pieceB3 (F := Ideal) c (grid1.coords t) (ms1_0 t) (hs1_0 t) (ms1_1 t) (hs1_1 t) (ms1_2 t) (hs1_2 t) (ms1_3 t) (hs1_3 t) (fun h => h0 ((hcond1_0 t).mp h)) (rows V c t) (bias V c t) (outsAt1 V c (t.val - 1) (Nat.lt_of_le_of_lt (Nat.sub_le _ _) t.isLt)).1 (outsAt1 V c (t.val - 1) (Nat.lt_of_le_of_lt (Nat.sub_le _ _) t.isLt)).2) (ix2 0 q)).trans ?_
  rw [pay5_apply]

theorem acc3 (c : Dev nD) (q : Fin 128) : ∀ n (h : n < cfg1.N),
    (outsAt1 V c n h).2 (ix2 0 q) = ∑ s ∈ Finset.range (n + 1), blockTerm V (fun x => x * x) c q s := by
  have hN : cfg1.N = 25 := N_1
  refine fold_sum (fun n h => (outsAt1 V c n h).2 (ix2 0 q)) (blockTerm V (fun x => x * x) c q) (fun h => ?_) (fun n h => ?_)
  · refine (first3 V c ⟨0, h⟩ rfl q).trans (congrArg (0 + ·) ?_)
    exact (blockTerm_of_lt V (fun x => x * x) c q 0 h).symm
  · refine (next3 V c ⟨n + 1, h⟩ (by dsimp only; omega) q).trans (congrArg₂ (· + ·) rfl ?_)
    exact (blockTerm_of_lt V (fun x => x * x) c q (n + 1) h).symm

end Invariant

section Final
variable (V : (c : Dev nD) → (b : Ref sig .tc) → Buf (Elt Ideal) ((c : Thread nD τ).loc b))

/-- The last of the 25 points. -/
theorem last_lt : 24 < cfg1.N := by rw [show cfg1.N = 25 from N_1]; decide

/-- Both accumulator windows sit at block (0, 0) at every point, and their block is the whole 1 x 128 array. -/
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem xs1_2 : ∀ t : Fin cfg1.N, win1_2.xsize (grid1.coords t) 0 = 1 ∧ win1_2.xsize (grid1.coords t) 1 = 128 :=
  (by decide +kernel : ∀ t : Fin grid1.N, win1_2.xsize (grid1.coords t) 0 = 1 ∧ win1_2.xsize (grid1.coords t) 1 = 128)
theorem xs1_3 : ∀ t : Fin cfg1.N, win1_3.xsize (grid1.coords t) 0 = 1 ∧ win1_3.xsize (grid1.coords t) 1 = 128 :=
  (by decide +kernel : ∀ t : Fin grid1.N, win1_3.xsize (grid1.coords t) 0 = 1 ∧ win1_3.xsize (grid1.coords t) 1 = 128)

/-- What the accumulators hold after the last point, as contents of their arrays. -/
abbrev res2 (c : Dev nD) : Buf (Elt Ideal) ((c : Thread nD τ).loc main_v47_0) := (outsAt1 V c 24 last_lt).1
abbrev res3 (c : Dev nD) : Buf (Elt Ideal) ((c : Thread nD τ).loc main_v47_1) := (outsAt1 V c 24 last_lt).2

/-- The one write-back of the first accumulator, at the last point, writes that: its block is the whole array. -/
theorem flushed2_eq (c : Dev nD) (t : Fin cfg1.N) (hf : (cfg1.win 2).flush t = true) :
    (dat1 V c).flushed 2 t = ((cfg1.win 2).blk t).view.read (Elt Ideal) (res2 V c) := by
  have hN : cfg1.N = 25 := N_1
  have h24 : t.val = 24 := by have := (flush1_2 t).mp hf; have := t.isLt; omega
  obtain rfl : t = ⟨24, last_lt⟩ := Fin.ext h24
  show (cfg1.win 2).cut (grid1.coords ⟨24, last_lt⟩) ((dat1 V c).after 2 ⟨24, last_lt⟩) = _
  rw [after1_2]
  have hz' : (fun a => win1_2.index ⟨24, last_lt⟩ a * main_v47_0.ty.shape.size a) = fun _ => 0 :=
    funext fun a => by
      match a with
      | ⟨0, _⟩ => show win1_2.index ⟨24, last_lt⟩ 0 * _ = 0; rw [(idx1_2 _).1, Nat.zero_mul]
      | ⟨1, _⟩ => show win1_2.index ⟨24, last_lt⟩ 1 * _ = 0; rw [(idx1_2 _).2, Nat.zero_mul]
  exact (Memref.read_access_unit_zero (Elt Ideal) main_v47_0 hz' (fun a => by rw [congrFun hz' a]; simp) (res2 V c)).symm

theorem flushed3_eq (c : Dev nD) (t : Fin cfg1.N) (hf : (cfg1.win 3).flush t = true) :
    (dat1 V c).flushed 3 t = ((cfg1.win 3).blk t).view.read (Elt Ideal) (res3 V c) := by
  have hN : cfg1.N = 25 := N_1
  have h24 : t.val = 24 := by have := (flush1_3 t).mp hf; have := t.isLt; omega
  obtain rfl : t = ⟨24, last_lt⟩ := Fin.ext h24
  show (cfg1.win 3).cut (grid1.coords ⟨24, last_lt⟩) ((dat1 V c).after 3 ⟨24, last_lt⟩) = _
  rw [after1_3]
  have hz' : (fun a => win1_3.index ⟨24, last_lt⟩ a * main_v47_1.ty.shape.size a) = fun _ => 0 :=
    funext fun a => by
      match a with
      | ⟨0, _⟩ => show win1_3.index ⟨24, last_lt⟩ 0 * _ = 0; rw [(idx1_3 _).1, Nat.zero_mul]
      | ⟨1, _⟩ => show win1_3.index ⟨24, last_lt⟩ 1 * _ = 0; rw [(idx1_3 _).2, Nat.zero_mul]
  exact (Memref.read_access_unit_zero (Elt Ideal) main_v47_1 hz' (fun a => by rw [congrFun hz' a]; simp) (res3 V c)).symm

/-- The last point's block covers every index of an accumulator array. -/
theorem cover2 (c : Dev nD) (i : ((cfg1.win 2).arr.view.loc (c.tc : Thread nD τ)).2.ty.Idx) :
    ∃ t : Fin cfg1.N, (cfg1.win 2).flush t = true ∧ i ∈ ((cfg1.win 2).blk t).view.set :=
  ⟨⟨24, last_lt⟩, (flush1_2 _).mpr rfl, by
    show i ∈ ((View.whole main_v47_0).slice (win1_2.rect ⟨24, last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win1_2.index ⟨24, last_lt⟩ 0 * win1_2.size 0 ≤ (i 0 : Nat) ∧ (i 0 : Nat) < win1_2.index ⟨24, last_lt⟩ 0 * win1_2.size 0 + win1_2.xsize (grid1.coords ⟨24, last_lt⟩) 0
      rw [(idx1_2 _).1, (xs1_2 _).1]; omega
    | ⟨1, _⟩ =>
      show win1_2.index ⟨24, last_lt⟩ 1 * win1_2.size 1 ≤ (i 1 : Nat) ∧ (i 1 : Nat) < win1_2.index ⟨24, last_lt⟩ 1 * win1_2.size 1 + win1_2.xsize (grid1.coords ⟨24, last_lt⟩) 1
      rw [(idx1_2 _).2, (xs1_2 _).2]; omega⟩

theorem cover3 (c : Dev nD) (i : ((cfg1.win 3).arr.view.loc (c.tc : Thread nD τ)).2.ty.Idx) :
    ∃ t : Fin cfg1.N, (cfg1.win 3).flush t = true ∧ i ∈ ((cfg1.win 3).blk t).view.set :=
  ⟨⟨24, last_lt⟩, (flush1_3 _).mpr rfl, by
    show i ∈ ((View.whole main_v47_1).slice (win1_3.rect ⟨24, last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win1_3.index ⟨24, last_lt⟩ 0 * win1_3.size 0 ≤ (i 0 : Nat) ∧ (i 0 : Nat) < win1_3.index ⟨24, last_lt⟩ 0 * win1_3.size 0 + win1_3.xsize (grid1.coords ⟨24, last_lt⟩) 0
      rw [(idx1_3 _).1, (xs1_3 _).1]; omega
    | ⟨1, _⟩ =>
      show win1_3.index ⟨24, last_lt⟩ 1 * win1_3.size 1 ≤ (i 1 : Nat) ∧ (i 1 : Nat) < win1_3.index ⟨24, last_lt⟩ 1 * win1_3.size 1 + win1_3.xsize (grid1.coords ⟨24, last_lt⟩) 1
      rw [(idx1_3 _).2, (xs1_3 _).2]; omega⟩

/-- So each accumulator array ends holding what its staging buffer held after the last point. -/
theorem final2 (c : Dev nD) : (dat1 V c).arrAt 2 cfg1.N = res2 V c :=
  (dat1 V c).arrAt_eq_of_cover 2 (res2 V c) (flushed2_eq V c) (cover2 c)
theorem final3 (c : Dev nD) : (dat1 V c).arrAt 3 cfg1.N = res3 V c :=
  (dat1 V c).arrAt_eq_of_cover 3 (res3 V c) (flushed3_eq V c) (cover3 c)

/-- A sum over the 50000 nodes, grouped by block: node p = 2000 t + r is row r of block t. -/
theorem regroup (f : Fin 50000 → EReal) :
    ∑ t : Fin 25, ∑ r : Fin 2000, f ⟨2000 * t.val + r.val, by omega⟩ = ∑ p : Fin 50000, f p := by
  rw [← Fintype.sum_prod_type' (f := fun (t : Fin 25) (r : Fin 2000) => f ⟨2000 * t.val + r.val, by omega⟩)]
  exact Fintype.sum_equiv (finProdFinEquiv.trans (finCongr (by norm_num : 25 * 2000 = 50000))) _ _
    (fun x => congrArg f (Fin.ext (by simp [finProdFinEquiv]; omega)))

/-- The aggregation array and the bias row as the region finds them. -/
abbrev aggArr (c : Dev nD) : FVec Ideal S50000x128 .f32 := V c main_v43
abbrev biasRow (c : Dev nD) : FVec Ideal S1x128 .f32 := V c main_v44

/-- The blocks' contributions, summed over all 25 points, are the sum over all nodes. -/
theorem blocks_total (g : EReal → EReal) (c : Dev nD) (q : Fin 128) :
    ∑ s ∈ Finset.range 25, blockTerm V g c q s
      = ∑ p : Fin 50000, g (aggArr V c (ix2 p q) + biasRow V c (ix2 0 q)) := by
  have hN : cfg1.N = 25 := N_1
  rw [Finset.sum_range]
  refine Eq.trans ?_ (regroup fun p => g (aggArr V c (ix2 p q) + biasRow V c (ix2 0 q)))
  refine Finset.sum_congr rfl fun t _ => ?_
  have ht : t.val < cfg1.N := by omega
  rw [blockTerm_of_lt V g c q t.val ht]
  refine Finset.sum_congr rfl fun r _ => ?_
  exact congrArg g (congrArg₂ (· + ·) (rowBlock_apply V c ⟨t.val, ht⟩ r q ⟨2000 * t.val + r.val, by omega⟩ rfl)
    (biasBlock_apply V c ⟨t.val, ht⟩ q))

end Final

end Reg1

open Reg1

variable (m : (ℓ : Loc nD τ sig) → Buf (Elt Ideal) ℓ) (ρ : Dev nD → PrngReg)

/-- The biased aggregation as the second region finds it. -/
abbrev H4 (c : Dev nD) : Spec.SNxD.Idx → EReal :=
  Spec.biased (V4 (F := Ideal) m ρ c main_v43) (fun q => (V4 (F := Ideal) m ρ c main_v44 : S1x128.Idx → EReal) (ix2 0 q))

/-- After the second region the first accumulator holds the column sums. -/
theorem region1_sum (c : Dev nD) :
    (W5 (F := Ideal) m ρ c (Proc.devRef .tc main_v47_0) : S1x128.Idx → EReal)
      = fun j => Spec.colSum (H4 m ρ c) (j 1) := by
  refine (W5_arr (F := Ideal) m ρ c 2).trans ((final2 (V4 (F := Ideal) m ρ) c).trans ?_)
  funext j
  obtain ⟨a, q, rfl⟩ : ∃ a q, j = ix2 a q := ⟨j 0, j 1, eq_ix2 j⟩
  obtain rfl : a = 0 := Subsingleton.elim _ _
  exact (acc2 (V4 (F := Ideal) m ρ) c q 24 last_lt).trans (blocks_total (V4 (F := Ideal) m ρ) (fun x => x) c q)

/-- After the second region the second accumulator holds the column sums of the squares. -/
theorem region1_sumsq (c : Dev nD) :
    (W5 (F := Ideal) m ρ c (Proc.devRef .tc main_v47_1) : S1x128.Idx → EReal)
      = fun j => Spec.colSum (fun i => H4 m ρ c i * H4 m ρ c i) (j 1) := by
  refine (W5_arr (F := Ideal) m ρ c 3).trans ((final3 (V4 (F := Ideal) m ρ) c).trans ?_)
  funext j
  obtain ⟨a, q, rfl⟩ : ∃ a q, j = ix2 a q := ⟨j 0, j 1, eq_ix2 j⟩
  obtain rfl : a = 0 := Subsingleton.elim _ _
  exact (acc3 (V4 (F := Ideal) m ρ) c q 24 last_lt).trans (blocks_total (V4 (F := Ideal) m ρ) (fun x => x * x) c q)

end Cert.KernelIdeal.Val

end
-- ==== Proof.KReg2.lean ====
/-
  The third kernel region normalises block by block: its output array, assembled from the 25 row blocks, holds at
  every index the residual plus the clamped, scaled and shifted normalised value.
-/
import proofs.«151737_j55224689492697_1_alg».proof.Proof.Gen.KernelIdeal.Frame
import proofs.«151737_j55224689492697_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

section Blockwise

variable {F : FTy → Type} [FloatOps F]

/-- The zero offsets of a whole-block access, however they are spelt. -/
theorem normOffsets_zero : (![0, 0] : Fin 2 → Nat) = fun _ => 0 := funext fun a => by fin_cases a <;> rfl

/-- The block indices over the 25 grid points: the three [2000,128] windows (aggregation, residual, result) sit at
    block row `t`, column block 0; the five [1,128] rows always at block (0,0). -/
theorem normBlock_indices : ∀ t : Fin cfg2.N,
    (win2_0.index t (0 : Fin 2) = t.val ∧ win2_0.index t (1 : Fin 2) = 0)
    ∧ (win2_2.index t (0 : Fin 2) = t.val ∧ win2_2.index t (1 : Fin 2) = 0)
    ∧ (win2_7.index t (0 : Fin 2) = t.val ∧ win2_7.index t (1 : Fin 2) = 0)
    ∧ (win2_1.index t (0 : Fin 2) = 0 ∧ win2_1.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0) :=
  (by decide +kernel : ∀ t : Fin grid2.N, _)

section Blocks
variable (V : (c : Dev nD) → (b : Ref sig .tc) → Buf (Elt F) ((c : Thread nD τ).loc b))

/-- The aggregation's block at point `t`, entry `(p, q)`, is the array's entry at row `2000 t + p`, column `q`. -/
theorem normAggBlock_apply (c : Dev nD) (t : Fin cfg2.N) (p : Fin 2000) (q : Fin 128) (i : S50000x128.Idx)
    (h0 : (i 0).val = 2000 * t.val + p.val) (h1 : (i 1).val = q.val) :
    (iblk2 V c 0 t : Vec F S2000x128 .f32) (ix2 p q) = (V c main_v43 : S50000x128.Idx → Elt F .f32) i := by
  obtain ⟨⟨e0, e1⟩, -⟩ := normBlock_indices t
  unfold iblk2
  rw [View.read_apply]
  show V c main_v43 _ = V c main_v43 _
  congr 1
  funext a
  apply Fin.ext
  match a with
  | ⟨0, _⟩ => show win2_0.index t 0 * 2000 + 1 * p.val = (i 0).val; rw [e0, h0]; omega
  | ⟨1, _⟩ => show win2_0.index t 1 * 128 + 1 * q.val = (i 1).val; rw [e1, h1]; omega

/-- The residual's block at point `t` likewise: the node features at row `2000 t + p`, column `q`. -/
theorem normResBlock_apply (c : Dev nD) (t : Fin cfg2.N) (p : Fin 2000) (q : Fin 128) (i : S50000x128.Idx)
    (h0 : (i 0).val = 2000 * t.val + p.val) (h1 : (i 1).val = q.val) :
    (iblk2 V c 2 t : Vec F S2000x128 .f32) (ix2 p q) = (V c main_arg0 : S50000x128.Idx → Elt F .f32) i := by
  obtain ⟨-, ⟨e0, e1⟩, -⟩ := normBlock_indices t
  unfold iblk2
  rw [View.read_apply]
  show V c main_arg0 _ = V c main_arg0 _
  congr 1
  funext a
  apply Fin.ext
  match a with
  | ⟨0, _⟩ => show win2_2.index t 0 * 2000 + 1 * p.val = (i 0).val; rw [e0, h0]; omega
  | ⟨1, _⟩ => show win2_2.index t 1 * 128 + 1 * q.val = (i 1).val; rw [e1, h1]; omega

/-- Each one-row window's block is its whole array at every point: the bias, -/
theorem normBiasBlock_apply (c : Dev nD) (t : Fin cfg2.N) (y : S1x128.Idx) :
    (iblk2 V c 1 t : Vec F S1x128 .f32) y = (V c main_v44 : S1x128.Idx → Elt F .f32) y := by
  obtain ⟨-, -, -, ⟨e0, e1⟩, -⟩ := normBlock_indices t
  unfold iblk2
  rw [View.read_apply]
  show V c main_v44 _ = V c main_v44 _
  congr 1
  funext a
  apply Fin.ext
  match a with
  | ⟨0, _⟩ => show win2_1.index t 0 * 1 + 1 * (y 0).val = (y 0).val; rw [e0]; omega
  | ⟨1, _⟩ => show win2_1.index t 1 * 128 + 1 * (y 1).val = (y 1).val; rw [e1]; omega

/-- the mean, -/
theorem normMeanBlock_apply (c : Dev nD) (t : Fin cfg2.N) (y : S1x128.Idx) :
    (iblk2 V c 3 t : Vec F S1x128 .f32) y = (V c main_v49 : S1x128.Idx → Elt F .f32) y := by
  obtain ⟨-, -, -, -, ⟨e0, e1⟩, -⟩ := normBlock_indices t
  unfold iblk2
  rw [View.read_apply]
  show V c main_v49 _ = V c main_v49 _
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- the variance, -/
theorem normVarBlock_apply (c : Dev nD) (t : Fin cfg2.N) (y : S1x128.Idx) :
    (iblk2 V c 4 t : Vec F S1x128 .f32) y = (V c main_v53 : S1x128.Idx → Elt F .f32) y := by
  obtain ⟨-, -, -, -, -, ⟨e0, e1⟩, -⟩ := normBlock_indices t
  unfold iblk2
  rw [View.read_apply]
  show V c main_v53 _ = V c main_v53 _
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- the scale, -/
theorem normGammaBlock_apply (c : Dev nD) (t : Fin cfg2.N) (y : S1x128.Idx) :
    (iblk2 V c 5 t : Vec F S1x128 .f32) y = (V c main_v45 : S1x128.Idx → Elt F .f32) y := by
  obtain ⟨-, -, -, -, -, -, ⟨e0, e1⟩, -⟩ := normBlock_indices t
  unfold iblk2
  rw [View.read_apply]
  show V c main_v45 _ = V c main_v45 _
  congr 1
  funext a
  apply Fin.ext
  match a with
  | ⟨0, _⟩ => show win2_5.index t 0 * 1 + 1 * (y 0).val = (y 0).val; rw [e0]; omega
  | ⟨1, _⟩ => show win2_5.index t 1 * 128 + 1 * (y 1).val = (y 1).val; rw [e1]; omega

/-- and the shift. -/
theorem normBetaBlock_apply (c : Dev nD) (t : Fin cfg2.N) (y : S1x128.Idx) :
    (iblk2 V c 6 t : Vec F S1x128 .f32) y = (V c main_v46 : S1x128.Idx → Elt F .f32) y := by
  obtain ⟨-, -, -, -, -, -, -, e0, e1⟩ := normBlock_indices t
  unfold iblk2
  rw [View.read_apply]
  show V c main_v46 _ = V c main_v46 _
  congr 1
  funext a
  apply Fin.ext
  match a with
  | ⟨0, _⟩ => show win2_6.index t 0 * 1 + 1 * (y 0).val = (y 0).val; rw [e0]; omega
  | ⟨1, _⟩ => show win2_6.index t 1 * 128 + 1 * (y 1).val = (y 1).val; rw [e1]; omega

end Blocks

/-! ## The body's arithmetic at an index -/

/-- The stored block at `(p, q)`: the residual plus the clamp at zero of the normalised value, the operations in the
    body's order; each [1,128] row is read at `(0, q)`, a cast to the same shape is the identity, and the kernel's
    reciprocal square root is the extended reals'. -/
theorem normPayload_at (A : Vec Ideal S2000x128 .f32) (b var mu ga be : Vec Ideal S1x128 .f32) (X : Vec Ideal S2000x128 .f32)
    (p : Fin 2000) (q : Fin 128) :
    k2_pay1 A b var mu ga be X (ix2 p q)
      = X (ix2 p q) + max ((((A (ix2 p q) + b (ix2 0 q)) - mu (ix2 0 q)) * Ideal.rsqrt (var (ix2 0 q) + Spec.eps)) * ga (ix2 0 q)
          + be (ix2 0 q)) Spec.zero := by
  unfold k2_pay1
  simp only [shapeCast_self, addf_apply, subf_apply, mulf_apply, maximumf_apply, broadcast_apply, broadcastTo_1b_ab_apply]
  rfl

/-! ## From the blocks to the array -/

section Array
variable (V : (c : Dev nD) → (b : Ref sig .tc) → Buf (Elt Ideal) ((c : Thread nD τ).loc b))

/-- The layer output as one function of the arrays the region finds. -/
abbrev normLayerOut (c : Dev nD) : Spec.SNxD.Idx → EReal :=
  Spec.normalized (V c main_arg0)
    (Spec.biased (V c main_v43) (fun q => (V c main_v44 : S1x128.Idx → EReal) (ix2 0 q)))
    (fun q => (V c main_v49 : S1x128.Idx → EReal) (ix2 0 q))
    (fun q => (V c main_v53 : S1x128.Idx → EReal) (ix2 0 q))
    (fun q => (V c main_v45 : S1x128.Idx → EReal) (ix2 0 q))
    (fun q => (V c main_v46 : S1x128.Idx → EReal) (ix2 0 q))

/-- What point `t` writes back is block `t` of the layer output. -/
theorem normWritten_block (c : Dev nD) (t : Fin cfg2.N) :
    (dat2 V c).flushed 7 t = ((cfg2.win 7).blk t).view.read (Elt Ideal) (normLayerOut V c) := by
  show (cfg2.win 7).cut (grid2.coords t) ((dat2 V c).after 7 t) = _
  rw [after2_7]
  unfold out2_7
  rw [View.canon_unit_zero normOffsets_zero]
  simp only [View.ld_unit_zero (S := S2000x128) normOffsets_zero, View.ld_unit_zero (S := S1x128) normOffsets_zero]
  funext j
  obtain ⟨p, q, rfl⟩ : ∃ (p : Fin 2000) (q : Fin 128), j = ix2 p q := ⟨j 0, j 1, eq_ix2 j⟩
  obtain ⟨-, -, ⟨e0, e1⟩, -⟩ := normBlock_indices t
  -- the array index that entry `(p, q)` of block `t` lands on: row `2000 t + p`, column `q`
  obtain ⟨i, hi⟩ : ∃ i : S50000x128.Idx, i = ((cfg2.win 7).blk t).view.emb (ix2 p q) := ⟨_, rfl⟩
  have h0 : (i 0).val = 2000 * t.val + p.val := by
    rw [hi]; show win2_7.index t 0 * 2000 + 1 * p.val = _; rw [e0]; omega
  have h1 : (i 1).val = q.val := by
    rw [hi]; show win2_7.index t 1 * 128 + 1 * q.val = _; rw [e1]; omega
  have hq : (i 1 : Fin 128) = q := Fin.ext h1
  show k2_pay1 (iblk2 V c 0 t) (iblk2 V c 1 t) (iblk2 V c 4 t) (iblk2 V c 3 t) (iblk2 V c 5 t) (iblk2 V c 6 t)
      (iblk2 V c 2 t) (ix2 p q) = normLayerOut V c (((cfg2.win 7).blk t).view.emb (ix2 p q))
  rw [← hi]
  refine (normPayload_at _ _ _ _ _ _ _ p q).trans ?_
  rw [normAggBlock_apply V c t p q i h0 h1, normResBlock_apply V c t p q i h0 h1, normBiasBlock_apply V c t, normMeanBlock_apply V c t,
    normVarBlock_apply V c t, normGammaBlock_apply V c t, normBetaBlock_apply V c t]
  subst hq
  rfl

/-- An index of the result array lies in point `t`'s block iff on each axis it lies in the block's range there. -/
theorem normMem_block (t : Fin cfg2.N) (i : S50000x128.Idx) :
    i ∈ ((cfg2.win 7).blk t).view.set
      ↔ ∀ a : Fin 2, win2_7.index t a * S2000x128.size a ≤ (i a).val
          ∧ (i a).val < win2_7.index t a * S2000x128.size a + S2000x128.size a := by
  show i ∈ ((View.whole main_v54).slice (win2_7.rect t)).set ↔ _
  rw [View.set_slice_whole, Rect.mem_set_unit]
  exact Iff.rfl

/-- The 25 blocks of 2000 rows cover the 50000 rows: row `r` lies in block `r / 2000`, and every point writes back. -/
theorem normRows_covered (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, ⟨e0, e1⟩, -⟩ := normBlock_indices t
  refine ⟨t, flush2_7 t, ?_⟩
  rw [normMem_block]
  intro a
  match a with
  | ⟨0, _⟩ =>
    show win2_7.index t 0 * 2000 ≤ (i 0).val ∧ (i 0).val < win2_7.index t 0 * 2000 + 2000
    rw [e0, ht]; omega
  | ⟨1, _⟩ =>
    show win2_7.index t 1 * 128 ≤ (i 1).val ∧ (i 1).val < win2_7.index t 1 * 128 + 128
    rw [e1]; omega

end Array

end Blockwise

variable (m : (ℓ : Loc nD τ sig) → Buf (Elt Ideal) ℓ) (ρ : Dev nD → PrngReg)

/-- After the third region the result array holds the normalised layer output, from the arrays that region finds. -/
theorem region2 (c : Dev nD) :
    (W7 (F := Ideal) m ρ c (Proc.devRef .tc main_v54) : Spec.SNxD.Idx → EReal)
      = Spec.normalized (V6 (F := Ideal) m ρ c main_arg0)
          (Spec.biased (V6 (F := Ideal) m ρ c main_v43) (fun q => (V6 (F := Ideal) m ρ c main_v44 : S1x128.Idx → EReal) (ix2 0 q)))
          (fun q => (V6 (F := Ideal) m ρ c main_v49 : S1x128.Idx → EReal) (ix2 0 q))
          (fun q => (V6 (F := Ideal) m ρ c main_v53 : S1x128.Idx → EReal) (ix2 0 q))
          (fun q => (V6 (F := Ideal) m ρ c main_v45 : S1x128.Idx → EReal) (ix2 0 q))
          (fun q => (V6 (F := Ideal) m ρ c main_v46 : S1x128.Idx → EReal) (ix2 0 q)) := by
  show W7 (F := Ideal) m ρ c (Proc.devRef .tc (Pipeline.arrRef spec2 7)) = _
  rw [W7_arr m ρ c 7]
  exact (dat2 (V6 (F := Ideal) m ρ) c).arrAt_eq_of_cover 7 (normLayerOut (V6 (F := Ideal) m ρ) c)
    (fun t _ => normWritten_block (V6 (F := Ideal) m ρ) c t) normRows_covered

end Cert.KernelIdeal.Val

end
-- ==== Proof.KHost.lean ====
/-
  The host operations between the kernel regions, read at the buffers the regions take.

  Before the second region the host computes the aggregation of the projection over the edges and puts a unit axis in
  front of the bias, scale and shift vectors; between the second and third regions it divides the two accumulators by the
  number of nodes to get the mean row and, less the mean's square, the variance row.  A buffer a region only reads
  leaves that region as it entered it, and a buffer no host operation of a stretch writes passes through the stretch.
-/
import proofs.«151737_j55224689492697_1_alg».proof.Proof.Gen.KernelIdeal.Frame
import proofs.«151737_j55224689492697_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- A buffer the second region only reads is, at that region's exit, what it was at its entry. -/
theorem exit1_agg (c : Dev nD) : W5 (F := Ideal) m ρ c (Proc.devRef .tc main_v43) = W4 m ρ c (Proc.devRef .tc main_v43) :=
  (W5_arr m ρ c 0).trans (((dat1 (V4 m ρ) c).arrAt_in 0 rfl _).trans (A_eq1 (V4 m ρ) c 0))

theorem exit1_bias (c : Dev nD) : W5 (F := Ideal) m ρ c (Proc.devRef .tc main_v44) = W4 m ρ c (Proc.devRef .tc main_v44) :=
  (W5_arr m ρ c 1).trans (((dat1 (V4 m ρ) c).arrAt_in 1 rfl _).trans (A_eq1 (V4 m ρ) c 1))

/-- The bias row the regions read is the bias vector with a unit axis put in front. -/
theorem bias_row (c : Dev nD) :
    (W4 (F := Ideal) m ρ c (Proc.devRef .tc main_v44) : S1x128.Idx → EReal)
      = shapeCast S1x128 (m ((c : Thread nD τ).loc main_arg2)) shapeCasts_S128_S1x128 := by
  show StableHlo.after hostOps1_2 (StableHlo.after hostOps1_1 (StableHlo.after hostOps1 (W1 m ρ c))) (Proc.devRef .tc main_v44) = _
  after_results
  rw [W1_of_ne m ρ c main_arg2 (by decide)]
  rfl

theorem bias_at (c : Dev nD) (q : Fin 128) :
    (V4 (F := Ideal) m ρ c main_v44 : S1x128.Idx → EReal) (ix2 0 q) = (m ((c : Thread nD τ).loc main_arg2) : S128.Idx → EReal) (ix1 q) := by
  show (W4 (F := Ideal) m ρ c (Proc.devRef .tc main_v44) : S1x128.Idx → EReal) (ix2 0 q) = _
  rw [bias_row]
  exact shapeCast_a_1a_apply _ _ 0 q

/-- The aggregation and the bias row reach the third region unchanged. -/
theorem agg6 (c : Dev nD) : V6 (F := Ideal) m ρ c main_v43 = V4 m ρ c main_v43 := by
  show StableHlo.after hostOps2 (W5 m ρ c) (Proc.devRef .tc main_v43) = _
  after_results
  exact exit1_agg m ρ c

theorem bias6 (c : Dev nD) : V6 (F := Ideal) m ρ c main_v44 = V4 m ρ c main_v44 := by
  show StableHlo.after hostOps2 (W5 m ρ c) (Proc.devRef .tc main_v44) = _
  after_results
  exact exit1_bias m ρ c

/-- The residual the third region reads is the feature array as launched. -/
theorem x6 (c : Dev nD) : V6 (F := Ideal) m ρ c main_arg0 = m ((c : Thread nD τ).loc main_arg0) :=
  ((W7_arr m ρ c 2).trans (((dat2 (V6 m ρ) c).arrAt_in 2 rfl _).trans (A_eq2 (V6 m ρ) c 2))).symm.trans (W7_main_arg0 m ρ c)

/-- The scale and shift rows are the scale and shift vectors with a unit axis put in front. -/
theorem gamma_at (c : Dev nD) (q : Fin 128) :
    (V6 (F := Ideal) m ρ c main_v45 : S1x128.Idx → EReal) (ix2 0 q) = (m ((c : Thread nD τ).loc main_arg3) : S128.Idx → EReal) (ix1 q) := by
  have h : (W6 (F := Ideal) m ρ c (Proc.devRef .tc main_v45) : S1x128.Idx → EReal)
      = shapeCast S1x128 (m ((c : Thread nD τ).loc main_arg3)) shapeCasts_S128_S1x128 := by
    show StableHlo.after hostOps2 (W5 m ρ c) (Proc.devRef .tc main_v45) = _
    after_results
    rw [W5_of_ne m ρ c main_v45 (by decide)]
    show StableHlo.after hostOps1_2 (StableHlo.after hostOps1_1 (StableHlo.after hostOps1 (W1 m ρ c))) (Proc.devRef .tc main_v45) = _
    after_results
    rw [W1_of_ne m ρ c main_arg3 (by decide)]
    rfl
  show (W6 (F := Ideal) m ρ c (Proc.devRef .tc main_v45) : S1x128.Idx → EReal) (ix2 0 q) = _
  rw [h]
  exact shapeCast_a_1a_apply _ _ 0 q

theorem beta_at (c : Dev nD) (q : Fin 128) :
    (V6 (F := Ideal) m ρ c main_v46 : S1x128.Idx → EReal) (ix2 0 q) = (m ((c : Thread nD τ).loc main_arg4) : S128.Idx → EReal) (ix1 q) := by
  have h : (W6 (F := Ideal) m ρ c (Proc.devRef .tc main_v46) : S1x128.Idx → EReal)
      = shapeCast S1x128 (m ((c : Thread nD τ).loc main_arg4)) shapeCasts_S128_S1x128 := by
    show StableHlo.after hostOps2 (W5 m ρ c) (Proc.devRef .tc main_v46) = _
    after_results
    rw [W5_of_ne m ρ c main_v46 (by decide)]
    show StableHlo.after hostOps1_2 (StableHlo.after hostOps1_1 (StableHlo.after hostOps1 (W1 m ρ c))) (Proc.devRef .tc main_v46) = _
    after_results
    rw [W1_of_ne m ρ c main_arg4 (by decide)]
    rfl
  show (W6 (F := Ideal) m ρ c (Proc.devRef .tc main_v46) : S1x128.Idx → EReal) (ix2 0 q) = _
  rw [h]
  exact shapeCast_a_1a_apply _ _ 0 q

/-- The two accumulator rows after the second region, and the mean and variance rows the third region reads. -/
abbrev sumRow (c : Dev nD) : FVec Ideal S1x128 .f32 := W5 (F := Ideal) m ρ c (Proc.devRef .tc main_v47_0)
abbrev sumsqRow (c : Dev nD) : FVec Ideal S1x128 .f32 := W5 (F := Ideal) m ρ c (Proc.devRef .tc main_v47_1)
abbrev meanRow (c : Dev nD) : FVec Ideal S1x128 .f32 := V6 (F := Ideal) m ρ c main_v49
abbrev varRow (c : Dev nD) : FVec Ideal S1x128 .f32 := V6 (F := Ideal) m ρ c main_v53

/-- The divisor row: the number of nodes at every entry. -/
abbrev nodesRow : FVec Ideal S1x128 .f32 := broadcastInDim S1x128 ![] bcast_S_S1x128 (constant (F := Ideal) S_ .f32 0x47435000#32)

theorem meanRow_eq (c : Dev nD) : meanRow m ρ c = Host.divf (sumRow m ρ c) nodesRow := by
  show StableHlo.after hostOps2 (W5 m ρ c) (Proc.devRef .tc main_v49) = _
  after_results

theorem varRow_eq (c : Dev nD) :
    varRow m ρ c = subf (Host.divf (sumsqRow m ρ c) nodesRow) (mulf (Host.divf (sumRow m ρ c) nodesRow) (Host.divf (sumRow m ρ c) nodesRow)) := by
  show StableHlo.after hostOps2 (W5 m ρ c) (Proc.devRef .tc main_v53) = _
  after_results

/-- The mean row is the first accumulator divided by the number of nodes. -/
theorem mean_at (c : Dev nD) (q : Fin 128) :
    meanRow m ρ c (ix2 0 q) = Ideal.div (sumRow m ρ c (ix2 0 q)) Spec.nodes := by
  rw [meanRow_eq]
  rfl

/-- The variance row is the second accumulator divided by the number of nodes, less the square of the mean. -/
theorem var_at (c : Dev nD) (q : Fin 128) :
    varRow m ρ c (ix2 0 q)
      = Ideal.div (sumsqRow m ρ c (ix2 0 q)) Spec.nodes - meanRow m ρ c (ix2 0 q) * meanRow m ρ c (ix2 0 q) := by
  rw [varRow_eq, meanRow_eq]
  rfl

/-! ## The aggregation's host chain, read in three stages at any float instance -/

section Aggregation

variable {F : FTy → Type} [FloatOps F]
variable (mF : (ℓ : Loc nD τ sig) → Buf (Elt F) ℓ)

/-! ### The first stretch: the edges' ends and the degrees -/

/-- After the first host stretch: the edges' two lists of ends, with the self-loops appended. -/
theorem ends0_eq (c : Dev nD) :
    (W2 (F := F) mF ρ c (Proc.devRef .tc main_v4) : IVec Spec.SM 32) = Spec.ends0 (mF ((c : Thread nD τ).loc main_arg5)) := by
  show StableHlo.after hostOps1 (W1 mF ρ c) (Proc.devRef .tc main_v4) = _
  after_results
  rw [W1_of_ne mF ρ c main_arg5 (by decide)]
  rfl

theorem ends1_eq (c : Dev nD) :
    (W2 (F := F) mF ρ c (Proc.devRef .tc main_v7) : IVec Spec.SM 32) = Spec.ends1 (mF ((c : Thread nD τ).loc main_arg5)) := by
  show StableHlo.after hostOps1 (W1 mF ρ c) (Proc.devRef .tc main_v7) = _
  after_results
  rw [W1_of_ne mF ρ c main_arg5 (by decide)]
  rfl

/-- After the first host stretch: the comparison of the degrees with zero, and their inverse square roots. -/
theorem degreePositive_eq (c : Dev nD) :
    (W2 (F := F) mF ρ c (Proc.devRef .tc main_v13) : IVec Spec.SN 1)
      = cmpf .ogt (Spec.degree (F := F) (mF ((c : Thread nD τ).loc main_arg5)))
          (broadcastInDim Spec.SN ![] (by decide) (constant Spec.S0 .f32 0x00000000#32)) := by
  show StableHlo.after hostOps1 (W1 mF ρ c) (Proc.devRef .tc main_v13) = _
  after_results
  rw [W1_of_ne mF ρ c main_arg5 (by decide)]
  rfl

theorem degreeRsqrt_eq (c : Dev nD) :
    (W2 (F := F) mF ρ c (Proc.devRef .tc main_v14) : FVec F Spec.SN .f32)
      = Host.rsqrt (Spec.degree (F := F) (mF ((c : Thread nD τ).loc main_arg5))) := by
  show StableHlo.after hostOps1 (W1 mF ρ c) (Proc.devRef .tc main_v14) = _
  after_results
  rw [W1_of_ne mF ρ c main_arg5 (by decide)]
  rfl

theorem zeroScalar_eq (c : Dev nD) :
    (W2 (F := F) mF ρ c (Proc.devRef .tc main_cst_2) : FVec F Spec.S0 .f32) = constant Spec.S0 .f32 0x00000000#32 := by
  show StableHlo.after hostOps1 (W1 mF ρ c) (Proc.devRef .tc main_cst_2) = _
  after_results

/-- The projection's array passes through the first stretch. -/
theorem proj2_eq (c : Dev nD) : W2 (F := F) mF ρ c (Proc.devRef .tc main_v0) = W1 mF ρ c (Proc.devRef .tc main_v0) := by
  show StableHlo.after hostOps1 (W1 mF ρ c) (Proc.devRef .tc main_v0) = _
  after_results

/-! ### The call that guards the inverse square root, from any contents -/

theorem guard_of (V : Valuation τ sig (Elt F)) :
    (StableHlo.after (hostOps1_1 (F := F)) V (Proc.devRef .tc main_v15) : FVec F Spec.SN .f32)
      = select (V (Proc.devRef .tc main_v13) : IVec Spec.SN 1) (V (Proc.devRef .tc main_v14) : FVec F Spec.SN .f32)
          (broadcastInDim Spec.SN ![] (by decide) (id (V (Proc.devRef .tc main_cst_2) : FVec F Spec.S0 .f32))) := by
  after_results
  rfl

theorem guard_keeps (V : Valuation τ sig (Elt F)) (r : Ref sig .tc) (h4 : r ≠ main_call0_v0) (h5 : r ≠ main_call0_v1) (h6 : r ≠ main_v15) :
    StableHlo.after (hostOps1_1 (F := F)) V (Proc.devRef .tc r) = V (Proc.devRef .tc r) :=
  StableHlo.after_of_forall_not_mem _ _ (List.forall_iff_forall_mem.mp (by
    simp only [hostOps1_1, List.Forall, StableHlo.unary_writes, StableHlo.ternary_writes, Finset.mem_singleton]
    exact ⟨StableHlo.devRef_ne_of_ne h4, StableHlo.devRef_ne_of_ne h5, StableHlo.devRef_ne_of_ne h6⟩))

/-- After the call: the inverse square root of the degree where it is positive, zero elsewhere. -/
theorem invSqrtDegree_eq (c : Dev nD) :
    (W3 (F := F) mF ρ c (Proc.devRef .tc main_v15) : FVec F Spec.SN .f32) = Spec.invSqrtDegree (F := F) (mF ((c : Thread nD τ).loc main_arg5)) := by
  show StableHlo.after hostOps1_1 (W2 mF ρ c) (Proc.devRef .tc main_v15) = _
  rw [guard_of, degreePositive_eq, degreeRsqrt_eq, zeroScalar_eq]
  rfl

/-! ### The third stretch: gather, weigh and scatter, from any contents -/

theorem aggregate_of (V : Valuation τ sig (Elt F)) :
    (StableHlo.after (hostOps1_2 (F := F)) V (Proc.devRef .tc main_v43) : FVec F Spec.SNxD .f32)
      = Host.scatterAdd Spec.scatterRow (broadcastInDim Spec.SNxD ![] (by decide) (constant Spec.S0 .f32 0x00000000#32))
          (Spec.column (V (Proc.devRef .tc main_v7) : IVec Spec.SM 32))
          (mulf (Host.gather Spec.gatherRow (V (Proc.devRef .tc main_v0) : FVec F Spec.SNxD .f32)
                  (Spec.column (Spec.wrap (V (Proc.devRef .tc main_v4) : IVec Spec.SM 32))))
            (broadcastInDim Spec.SMxD ![0, 1] (by decide)
              (Spec.column (mulf
                (Host.gather Spec.gatherNode (V (Proc.devRef .tc main_v15) : FVec F Spec.SN .f32)
                  (Spec.column (Spec.wrap (V (Proc.devRef .tc main_v4) : IVec Spec.SM 32))))
                (Host.gather Spec.gatherNode (V (Proc.devRef .tc main_v15) : FVec F Spec.SN .f32)
                  (Spec.column (Spec.wrap (V (Proc.devRef .tc main_v7) : IVec Spec.SM 32)))))))) := by
  after_results_simp
  rfl

/-- Before the second region the aggregation's array holds the aggregation of the projection's array over the
    launched edge list. -/
theorem agg_eq (c : Dev nD) :
    (W4 (F := F) mF ρ c (Proc.devRef .tc main_v43) : FVec F Spec.SNxD .f32)
      = Spec.aggregate (F := F) (W1 mF ρ c (Proc.devRef .tc main_v0)) (mF ((c : Thread nD τ).loc main_arg5)) := by
  show StableHlo.after hostOps1_2 (W3 mF ρ c) (Proc.devRef .tc main_v43) = _
  rw [aggregate_of, invSqrtDegree_eq]
  rw [show W3 mF ρ c (Proc.devRef .tc main_v7) = W2 mF ρ c (Proc.devRef .tc main_v7) from guard_keeps (W2 mF ρ c) main_v7 (by decide) (by decide) (by decide),
    show W3 mF ρ c (Proc.devRef .tc main_v4) = W2 mF ρ c (Proc.devRef .tc main_v4) from guard_keeps (W2 mF ρ c) main_v4 (by decide) (by decide) (by decide),
    show W3 mF ρ c (Proc.devRef .tc main_v0) = W2 mF ρ c (Proc.devRef .tc main_v0) from guard_keeps (W2 mF ρ c) main_v0 (by decide) (by decide) (by decide),
    ends0_eq, ends1_eq, proj2_eq]
  rfl

end Aggregation

end Cert.KernelIdeal.Val

end
-- ==== Proof.KValue.lean ====
/-
  The kernel program's result, from the launched arrays.

  The first region leaves the projection X W; the host aggregates it over the edges and reshapes the bias; the second
  region leaves the column sums of the biased aggregation and of its squares; the host divides them by the number of
  nodes into the mean and the variance by moments; the third region normalises with those rows.  Chaining the five
  readings, the result array is the specification's normalised output with the variance written by moments.
-/
import proofs.«151737_j55224689492697_1_alg».proof.Proof.Gen.KernelIdeal.Frame
import proofs.«151737_j55224689492697_1_alg».proof.Proof.Spec
import proofs.«151737_j55224689492697_1_alg».proof.Proof.KReg0
import proofs.«151737_j55224689492697_1_alg».proof.Proof.KReg1
import proofs.«151737_j55224689492697_1_alg».proof.Proof.KReg2
import proofs.«151737_j55224689492697_1_alg».proof.Proof.KHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The biased aggregation of the projection, from the launched argument arrays. -/
abbrev HK (c : Dev nD) : Spec.SNxD.Idx → EReal :=
  Spec.biased
    (Spec.aggregate (F := Ideal) (Spec.proj (m ((c : Thread nD τ).loc main_arg0)) (m ((c : Thread nD τ).loc main_arg1)))
      (m ((c : Thread nD τ).loc main_arg5)))
    (fun q => (m ((c : Thread nD τ).loc main_arg2) : S128.Idx → EReal) (ix1 q))

/-- Before the second region the aggregation's array is the aggregation of `X W` over the launched edges. -/
theorem aggregation4 (c : Dev nD) :
    (V4 (F := Ideal) m ρ c main_v43 : Spec.SNxD.Idx → EReal)
      = Spec.aggregate (F := Ideal) (Spec.proj (m ((c : Thread nD τ).loc main_arg0)) (m ((c : Thread nD τ).loc main_arg1)))
          (m ((c : Thread nD τ).loc main_arg5)) := by
  show W4 (F := Ideal) m ρ c (Proc.devRef .tc main_v43) = _
  rw [agg_eq (F := Ideal) ρ m c, region0 m ρ c]

/-- What the second region sums is the biased aggregation of the projection. -/
theorem biased4 (c : Dev nD) : H4 m ρ c = HK m c := by
  show Spec.biased (V4 (F := Ideal) m ρ c main_v43) (fun q => (V4 (F := Ideal) m ρ c main_v44 : S1x128.Idx → EReal) (ix2 0 q)) = _
  rw [aggregation4 m ρ c, show (fun q => (V4 (F := Ideal) m ρ c main_v44 : S1x128.Idx → EReal) (ix2 0 q))
      = fun q => (m ((c : Thread nD τ).loc main_arg2) : S128.Idx → EReal) (ix1 q) from funext (bias_at m ρ c)]

/-- The mean row the third region reads holds the column means. -/
theorem mean6 (c : Dev nD) :
    (fun q => (V6 (F := Ideal) m ρ c main_v49 : S1x128.Idx → EReal) (ix2 0 q)) = Spec.mean (HK m c) := by
  funext q
  show meanRow m ρ c (ix2 0 q) = _
  rw [mean_at m ρ c q, show sumRow m ρ c = _ from region1_sum m ρ c, biased4 m ρ c]
  rfl

/-- The variance row the third region reads holds the columns' variances by moments. -/
theorem var6 (c : Dev nD) :
    (fun q => (V6 (F := Ideal) m ρ c main_v53 : S1x128.Idx → EReal) (ix2 0 q)) = Spec.varMoments (HK m c) := by
  funext q
  show varRow m ρ c (ix2 0 q) = _
  rw [var_at m ρ c q, mean_at m ρ c q, show sumRow m ρ c = _ from region1_sum m ρ c,
    show sumsqRow m ρ c = _ from region1_sumsq m ρ c, biased4 m ρ c]
  rfl

/-- The kernel program's result array is the normalised layer output, with the variance by moments. -/
theorem kernel_value (c : Dev nD) :
    (W7 (F := Ideal) m ρ c (Proc.devRef .tc main_v54) : Spec.SNxD.Idx → EReal)
      = Spec.normalized (m ((c : Thread nD τ).loc main_arg0)) (HK m c) (Spec.mean (HK m c)) (Spec.varMoments (HK m c))
          (fun q => (m ((c : Thread nD τ).loc main_arg3) : S128.Idx → EReal) (ix1 q))
          (fun q => (m ((c : Thread nD τ).loc main_arg4) : S128.Idx → EReal) (ix1 q)) := by
  have hH : Spec.biased (V6 (F := Ideal) m ρ c main_v43) (fun q => (V6 (F := Ideal) m ρ c main_v44 : S1x128.Idx → EReal) (ix2 0 q)) = HK m c := by
    rw [agg6 m ρ c, bias6 m ρ c]
    exact biased4 m ρ c
  rw [region2 m ρ c, hH, x6 m ρ c, mean6 m ρ c, var6 m ρ c,
    show (fun q => (V6 (F := Ideal) m ρ c main_v45 : S1x128.Idx → EReal) (ix2 0 q))
      = fun q => (m ((c : Thread nD τ).loc main_arg3) : S128.Idx → EReal) (ix1 q) from funext (gamma_at m ρ c),
    show (fun q => (V6 (F := Ideal) m ρ c main_v46 : S1x128.Idx → EReal) (ix2 0 q))
      = fun q => (m ((c : Thread nD τ).loc main_arg4) : S128.Idx → EReal) (ix1 q) from funext (beta_at m ρ c)]

end Cert.KernelIdeal.Val

end
-- ==== Proof.RefValue.lean ====
/-
  The reference program's result is the specification's normalised layer output.

  The reference multiplies X by W in one contraction, aggregates over the edges, adds the bias, takes each column's
  mean as its sum over the 50000 nodes divided by 50000 and each column's variance as the mean of the squared
  deviations from that mean, normalises, scales, shifts, clamps below at zero and adds X.

  The proof follows the reference stage by stage.  The edge aggregation is never opened: the reference's chain of
  index arithmetic, gathers and scatters is the specification's `aggregate` term for term, at any float instance.
  The contraction is read as a sum over the 128 shared coordinates.  Everything after the aggregation is pointwise
  in the column q, or a sum over the rows of column q, so each stage is read at an index with explicit coordinates
  (p, q) or (q) and the broadcast stages reduce to equations between small index functions.
-/
import proofs.«151737_j55224689492697_1_alg».proof.Proof.RefRun
import proofs.«151737_j55224689492697_1_alg».proof.Proof.RefRead
import proofs.«151737_j55224689492697_1_alg».proof.Proof.Spec
import proofs.«151737_j55224689492697_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- The biased aggregation of the projection, from the reference's argument arrays. -/
abbrev HR (x0 : Spec.SNxD.Idx → EReal) (x1 : Spec.SDxD.Idx → EReal) (x2 : S128.Idx → EReal) (x5 : IVec S2x640000 32) :
    Spec.SNxD.Idx → EReal :=
  Spec.biased (Spec.aggregate (F := Ideal) (Spec.proj x0 x1) x5) (fun q => x2 (ix1 q))

/-! ## The aggregation and the projection -/

/-- The reference's accumulating scatter of the weighted source rows is the specification's aggregation of the
    contraction's result.  Both sides are the same composition of the same operations on the edge list (the two
    ends with self-loops appended, the wrap of negative node numbers, the degree count, its inverse square root,
    the two gathers of it, the gather of rows, the product and the final scatter), so once the contraction's result
    is a variable the two terms agree by unfolding their names; this holds for every float instance. -/
theorem aggregate_eq {F : FTy → Type} [FloatOps F]
    (x0 : (⟨S50000x128, .f32⟩ : BufTy).Contents (Elt F)) (x1 : (⟨S128x128, .f32⟩ : BufTy).Contents (Elt F))
    (x5 : (⟨S2x640000, .i32⟩ : BufTy).Contents (Elt F)) :
    ReadP.val_main_v43 (F := F) x0 x1 x5 = Spec.aggregate (F := F) (ReadP.val_main_v0 (F := F) x0 x1) x5 := by
  unfold ReadP.val_main_v43 ReadP.val_main_v40 ReadP.val_main_v37
  generalize ReadP.val_main_v0 (F := F) x0 x1 = p
  rfl

/-- The contraction over the extended reals: entry (p, q) is the sum over k of X (p, k) * W (k, q).  The left
    operand is read at (row of the result, k) and the right at (k, column of the result). -/
theorem proj_eq (x0 : Spec.SNxD.Idx → EReal) (x1 : Spec.SDxD.Idx → EReal) :
    ReadP.val_main_v0 (F := Ideal) x0 x1 = Spec.proj x0 x1 := by
  funext i
  rw [ReadP.val_main_v0_apply]
  unfold Spec.proj
  refine Finset.sum_congr rfl fun k _ => ?_
  have el : ReadP.lidx_main_v0 i k = ix2 (i 0) k :=
    funext fun a => Fin.ext (by match a with | ⟨0, _⟩ => rfl | ⟨1, _⟩ => rfl)
  have er : ReadP.ridx_main_v0 i k = ix2 k (i 1) :=
    funext fun a => Fin.ext (by match a with | ⟨0, _⟩ => rfl | ⟨1, _⟩ => rfl)
  rw [el, er]
  rfl

/-! ## The dense stages, read at explicit coordinates -/

section Dense

variable (x0 : Spec.SNxD.Idx → EReal) (x1 : Spec.SDxD.Idx → EReal) (x2 x3 x4 : S128.Idx → EReal) (x5 : IVec S2x640000 32)

/-- The bias stage: the bias vector is broadcast first to one row and then to every row, so at (p, q) it is read
    at q; the sum with the aggregation is H. -/
theorem biased_eq : ReadP.val_main_v46 (F := Ideal) x0 x1 x2 x5 = HR x0 x1 x2 x5 := by
  funext i
  obtain ⟨p, q, rfl⟩ : ∃ (p : Fin 50000) (q : Fin 128), i = ix2 p q := ⟨i 0, i 1, eq_ix2 i⟩
  rw [ReadP.val_main_v46_apply, ReadP.val_main_v45_apply, ReadP.val_main_v44_apply, aggregate_eq, proj_eq]
  have e : ReadP.idx_main_v44 (ReadP.idx_main_v45 (ix2 p q)) = ix1 q :=
    funext fun a => Fin.ext (by match a with | ⟨0, _⟩ => rfl)
  rw [e]
  rfl

/-- The column mean: the float sum over the rows starts from the float zero, which is the real 0, and its k-th
    term is H at (k, q); the quotient by the float 50000 is the specification's mean. -/
theorem mean_eq (q : Fin 128) :
    ReadP.val_main_v49 (F := Ideal) x0 x1 x2 x5 (ix1 q) = Spec.mean (HR x0 x1 x2 x5) q := by
  rw [ReadP.val_main_v49_apply, ReadP.val_main_v47_apply, ReadP.val_main_v48_apply, ReadP.val_main_cst_10_apply,
    ReadP.val_main_cst_9_apply, biased_eq]
  have e : ∀ k : Fin 50000, ReadP.idx_main_v47 (ix1 q) k = ix2 k q := fun k =>
    funext fun a => Fin.ext (by match a with | ⟨0, _⟩ => rfl | ⟨1, _⟩ => rfl)
  simp only [e, Ideal.ofBits_def, Ideal.hostDivf_def, Ideal.ofBits_zero_f32, zero_add]
  rfl

/-- The deviation from the mean that enters the variance: the mean is broadcast back to every row, so at (p, q)
    it is the mean of column q. -/
theorem centred_eq (p : Fin 50000) (q : Fin 128) :
    ReadP.val_main_v52 (F := Ideal) x0 x1 x2 x5 (ix2 p q)
      = HR x0 x1 x2 x5 (ix2 p q) - Spec.mean (HR x0 x1 x2 x5) q := by
  rw [ReadP.val_main_v52_apply, ReadP.val_main_v51_apply, ReadP.val_main_v50_apply, biased_eq]
  have e : ReadP.idx_main_v50 (ReadP.idx_main_v51 (ix2 p q)) = ix1 q :=
    funext fun a => Fin.ext (by match a with | ⟨0, _⟩ => rfl)
  rw [e, mean_eq]
  rfl

/-- The same deviation, computed a second time by the reference for the normalisation's numerator. -/
theorem centred_eq' (p : Fin 50000) (q : Fin 128) :
    ReadP.val_main_v59 (F := Ideal) x0 x1 x2 x5 (ix2 p q)
      = HR x0 x1 x2 x5 (ix2 p q) - Spec.mean (HR x0 x1 x2 x5) q := by
  rw [ReadP.val_main_v59_apply, ReadP.val_main_v58_apply, ReadP.val_main_v57_apply, biased_eq]
  have e : ReadP.idx_main_v57 (ReadP.idx_main_v58 (ix2 p q)) = ix1 q :=
    funext fun a => Fin.ext (by match a with | ⟨0, _⟩ => rfl)
  rw [e, mean_eq]
  rfl

/-- The column variance: the sum over the rows of the squared deviations of column q, from the real 0, divided by
    the float 50000. -/
theorem var_eq (q : Fin 128) :
    ReadP.val_main_v56 (F := Ideal) x0 x1 x2 x5 (ix1 q) = Spec.varCentred (HR x0 x1 x2 x5) q := by
  rw [ReadP.val_main_v56_apply, ReadP.val_main_v54_apply, ReadP.val_main_v55_apply, ReadP.val_main_cst_12_apply,
    ReadP.val_main_cst_11_apply]
  have e : ∀ k : Fin 50000, ReadP.idx_main_v54 (ix1 q) k = ix2 k q := fun k =>
    funext fun a => Fin.ext (by match a with | ⟨0, _⟩ => rfl | ⟨1, _⟩ => rfl)
  simp only [e, ReadP.val_main_v53_apply, centred_eq, Ideal.ofBits_def, Ideal.hostDivf_def, Ideal.mulf_def,
    Ideal.ofBits_zero_f32, zero_add]
  rfl

/-- The last stage at (p, q): the deviation times the inverse square root of (variance + epsilon) of column q,
    times gamma q, plus beta q, clamped below at the float zero, plus X (p, q).  The three per-column vectors
    (the inverse square root, gamma, beta) are each broadcast to one row and then to every row, so each is read
    at q. -/
theorem stage_eq :
    ReadP.val_main_v73 (F := Ideal) x0 x1 x2 x3 x4 x5
      = Spec.normalized x0 (HR x0 x1 x2 x5) (Spec.mean (HR x0 x1 x2 x5)) (Spec.varCentred (HR x0 x1 x2 x5))
          (fun q => x3 (ix1 q)) (fun q => x4 (ix1 q)) := by
  funext i
  obtain ⟨p, q, rfl⟩ : ∃ (p : Fin 50000) (q : Fin 128), i = ix2 p q := ⟨i 0, i 1, eq_ix2 i⟩
  rw [ReadP.val_main_v73_apply, ReadP.val_main_v72_apply, ReadP.val_main_call1_v0_apply, ReadP.val_main_call1_cst_apply,
    ReadP.val_main_v71_apply, ReadP.val_main_v70_apply, ReadP.val_main_v69_apply, ReadP.val_main_v68_apply,
    ReadP.val_main_v67_apply, ReadP.val_main_v66_apply, ReadP.val_main_v65_apply, ReadP.val_main_v64_apply,
    ReadP.val_main_v63_apply, ReadP.val_main_v62_apply, ReadP.val_main_v61_apply, ReadP.val_main_v60_apply,
    ReadP.val_main_cst_13_apply]
  have e63 : ReadP.idx_main_v63 (ReadP.idx_main_v64 (ix2 p q)) = ix1 q :=
    funext fun a => Fin.ext (by match a with | ⟨0, _⟩ => rfl)
  have e66 : ReadP.idx_main_v66 (ReadP.idx_main_v67 (ix2 p q)) = ix1 q :=
    funext fun a => Fin.ext (by match a with | ⟨0, _⟩ => rfl)
  have e69 : ReadP.idx_main_v69 (ReadP.idx_main_v70 (ix2 p q)) = ix1 q :=
    funext fun a => Fin.ext (by match a with | ⟨0, _⟩ => rfl)
  rw [e63, e66, e69, centred_eq', var_eq]
  rfl

end Dense

/-! ## The result -/

/-- The reference's result term is the normalised layer output with the variance by centred squares. -/
theorem result_eq (m : (ℓ : Loc nD τ sig) → Buf (Elt Ideal) ℓ) (c : Dev nD) :
    (Cert.ReferenceIdeal.ValueP.res_main_v73 (F := Ideal) m c : Spec.SNxD.Idx → EReal)
      = Spec.normalized (m ((c.tc : Thread nD τ).loc main_arg0))
          (HR (m ((c.tc : Thread nD τ).loc main_arg0)) (m ((c.tc : Thread nD τ).loc main_arg1)) (m ((c.tc : Thread nD τ).loc main_arg2)) (m ((c.tc : Thread nD τ).loc main_arg5)))
          (Spec.mean (HR (m ((c.tc : Thread nD τ).loc main_arg0)) (m ((c.tc : Thread nD τ).loc main_arg1)) (m ((c.tc : Thread nD τ).loc main_arg2)) (m ((c.tc : Thread nD τ).loc main_arg5))))
          (Spec.varCentred (HR (m ((c.tc : Thread nD τ).loc main_arg0)) (m ((c.tc : Thread nD τ).loc main_arg1)) (m ((c.tc : Thread nD τ).loc main_arg2)) (m ((c.tc : Thread nD τ).loc main_arg5))))
          (fun q => (m ((c.tc : Thread nD τ).loc main_arg3) : S128.Idx → EReal) (ix1 q))
          (fun q => (m ((c.tc : Thread nD τ).loc main_arg4) : S128.Idx → EReal) (ix1 q)) := by
  rw [ReadP.val_main_v73_eq]
  exact stage_eq _ _ _ _ _ _

end Cert.ReferenceIdeal.RefValue

end
-- ==== Proof.Variance.lean ====
/-
  The two ways of writing a column's variance agree on real numbers.

  For real numbers a_1 … a_n with mean mu = (a_1 + … + a_n) / n, the mean of the squared deviations,
  ((a_1 - mu)^2 + … + (a_n - mu)^2) / n, equals the mean of the squares minus the square of the mean,
  (a_1^2 + … + a_n^2) / n - mu^2: expand each square and use that the deviations' plain sum is n mu - n mu = 0.
  On the extended reals the identity needs every a_p to be a real number (at an infinity the two sides differ), and
  the divisor, the float 50000, to be the real number 50000.
-/
import proofs.«151737_j55224689492697_1_alg».proof.Proof.Spec
import Mathlib.Data.EReal.Basic
import Mathlib.Data.EReal.Operations
import Mathlib.Algebra.BigOperators.Group.Finset.Basic
import Mathlib.Tactic.Ring
import Mathlib.Tactic.FieldSimp
import Mathlib.Tactic.NormNum

noncomputable section

namespace Spec

open Idealize.ShloMosaic Idealize.ShloMosaic.ValueIdx

/-- The float both programs divide by is the real number 50000. -/
theorem nodes_eq : nodes = ((50000 : ℝ) : EReal) := by
  -- The word 0x47435000 has sign 0, exponent field 142 and fraction field 4411392, so it denotes
  -- (2^23 + 4411392) * 2^(142 - 127 - 23) = 12800000 / 2^8 = 50000.
  simp [nodes, Ideal.ofBits, Ideal.ieee, -EReal.coe_mul]
  norm_num

/-- A finite sum of real numbers, read as an extended real, is the sum of the terms read as extended reals:
    the embedding of the reals is additive, so the claim follows term by term. -/
theorem variance_coe_sum {ι : Type} (s : Finset ι) (f : ι → ℝ) :
    ((∑ p ∈ s, f p : ℝ) : EReal) = ∑ p ∈ s, (f p : EReal) := by
  classical
  induction s using Finset.induction_on with
  | empty => simp
  | insert a s ha ih => rw [Finset.sum_insert ha, Finset.sum_insert ha, EReal.coe_add, ih]

/-- The identity on real numbers, over any finite index set `s` of `n ≠ 0` elements, with each division by `n`
    written as a product with `1 / n`.  With `S` the sum of the `a p` and `mu = S / n`, every squared deviation is
    `a p ^ 2 - 2 mu (a p) + mu ^ 2`; summed over `s` that is `(∑ a p ^ 2) - 2 mu S + n mu ^ 2`, and since
    `S = n mu` the last two terms leave `- n mu ^ 2`; dividing by `n` gives the mean of the squares less `mu ^ 2`. -/
theorem variance_real_identity {ι : Type} (s : Finset ι) (a : ι → ℝ) (n : ℝ) (hn : n ≠ 0)
    (hcard : (s.card : ℝ) = n) :
    (∑ p ∈ s, a p * a p) * (1 / n) - (∑ p ∈ s, a p) * (1 / n) * ((∑ p ∈ s, a p) * (1 / n))
      = (∑ p ∈ s, (a p - (∑ p ∈ s, a p) * (1 / n)) * (a p - (∑ p ∈ s, a p) * (1 / n))) * (1 / n) := by
  set S := ∑ p ∈ s, a p with hS
  set μ := S * (1 / n) with hμ
  -- one squared deviation, expanded
  have hexp : ∀ p, (a p - μ) * (a p - μ) = a p * a p - 2 * μ * a p + μ * μ := fun p => by ring
  -- the expansion summed: the middle term's constant factor comes out of the sum, the constant term is counted n times
  have hsum : ∑ p ∈ s, (a p - μ) * (a p - μ) = (∑ p ∈ s, a p * a p) - 2 * μ * S + n * (μ * μ) := by
    simp only [hexp]
    rw [Finset.sum_add_distrib, Finset.sum_sub_distrib, ← Finset.mul_sum, Finset.sum_const, nsmul_eq_mul, hcard]
  -- what remains is an identity of rational expressions in S, n and the sum of the squares
  rw [hsum, hμ]
  field_simp
  ring

/-- On an array of real numbers the variance by moments is the variance by centred squares. -/
theorem varMoments_eq_varCentred (H : SNxD.Idx → EReal) (hH : RealValued H) : varMoments H = varCentred H := by
  -- Fix a column q and name the real numbers a p that its entries H (p, q) are.
  funext q
  choose a ha using fun p : Fin 50000 => hH (ix2 p q)
  have hn : (50000 : ℝ) ≠ 0 := by norm_num
  -- The column's mean is the real number (∑ a p) * (1 / 50000): the divisor is the real 50000, a division by a
  -- nonzero real is the product with its reciprocal, and the sum of the entries is the sum of the a p.
  have hmean : mean H q = (((∑ p : Fin 50000, a p) * (1 / 50000) : ℝ) : EReal) := by
    show Ideal.div (∑ p : Fin 50000, H (ix2 p q)) nodes = _
    rw [nodes_eq, Ideal.div_coe hn, EReal.coe_mul, variance_coe_sum]
    simp only [ha]
  -- Both variances spelt out as sums over the rows p; in the centred one the mean is read at the second
  -- coordinate of the index (p, q), which is q.
  show Ideal.div (∑ p : Fin 50000, H (ix2 p q) * H (ix2 p q)) nodes - mean H q * mean H q
      = Ideal.div (∑ p : Fin 50000, (H (ix2 p q) - mean H q) * (H (ix2 p q) - mean H q)) nodes
  rw [hmean, nodes_eq, Ideal.div_coe hn, Ideal.div_coe hn]
  -- Every entry is a real number, so products, differences and sums of them are the extended reals of the real
  -- products, differences and sums: each side becomes one real expression, and the two are equal by the real identity
  -- over all 50000 rows.
  simp only [ha, ← EReal.coe_mul, ← EReal.coe_sub, ← variance_coe_sum]
  rw [variance_real_identity Finset.univ a 50000 hn (by simp)]

end Spec

end
-- ==== Proof.Finite.lean ====
/-
  The biased aggregation of real inputs is real.

  The projection's entries are finite sums of products of real numbers.  A degree is a finite sum of ones, so it is a
  real number; its inverse square root is taken only where the degree is positive, where it is a real number, and is
  replaced by zero elsewhere.  An edge's weight is a product of two such numbers read at the edge's ends, and a read
  through a gather is some entry of the array read.  A message is a projection entry times a weight, and each
  aggregated entry is zero plus a finite sum of messages; adding a real bias keeps it real.
-/
import proofs.«151737_j55224689492697_1_alg».proof.Proof.Spec
import Idealize.ShloMosaic.Lib.IdealHost

noncomputable section

namespace Spec

open Idealize.ShloMosaic Idealize.ShloMosaic.ValueIdx

/-! ## Real numbers among the extended reals are closed under sums and products -/

/-- Zero is a real number. -/
theorem real_zero : ∃ r : ℝ, (0 : EReal) = (r : EReal) := ⟨0, EReal.coe_zero.symm⟩

/-- The sum of two reals is the real sum. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is the real product. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is real: by induction on the index set, adding one real term at a time to a real sum. -/
theorem real_sum {ι : Type} (t : Finset ι) (f : ι → EReal) (hf : ∀ k, ∃ r : ℝ, f k = (r : EReal)) :
    ∃ r : ℝ, ∑ k ∈ t, f k = (r : EReal) := by
  classical
  induction t using Finset.induction_on with
  | empty => simpa using real_zero
  | insert a t ha ih => rw [Finset.sum_insert ha]; exact real_add (hf a) ih

/-! ## Each array operation of the aggregation keeps its entries real -/

/-- An entry of the projection is a sum over the 128 inner indices of products of an entry of `X` and one of `W`. -/
theorem RealValued.proj {X : SNxD.Idx → EReal} {W : SDxD.Idx → EReal} (hX : RealValued X) (hW : RealValued W) :
    RealValued (proj X W) :=
  fun _ => real_sum _ _ fun _ => real_mul (hX _) (hW _)

/-- A gathered entry is the entry of the array read at some index, whatever the start indices say. -/
theorem RealValued.gather {s si t : Shape} {w : Nat} (d : GatherDims s si t) {x : s.Idx → EReal} (hx : RealValued x)
    (idx : IVec si w) : RealValued (s := t) (Host.gather d x idx) :=
  fun _ => hx _

/-- An entrywise product's entry is the product of the two entries. -/
theorem RealValued.mulf {s : Shape} {a b : FVec Ideal s .f32} (ha : RealValued (s := s) a) (hb : RealValued (s := s) b) :
    RealValued (s := s) (mulf a b) :=
  fun i => real_mul (ha i) (hb i)

/-- A broadcast's entry is the operand's entry at the index that keeps the named coordinates. -/
theorem RealValued.broadcastInDim {s t : Shape} (dims : Fin s.rank → Fin t.rank) (h : s.BroadcastsInDim t dims)
    {x : s.Idx → EReal} (hx : RealValued x) : RealValued (s := t) (broadcastInDim t dims h x) :=
  fun _ => hx _

/-- The float word of all zero bits is the real number zero. -/
theorem RealValued.zeros (s : Shape) : RealValued (s := s) (constant (F := Ideal) s .f32 0x00000000#32) :=
  fun _ => ⟨0, by rw [constant_apply, Ideal.ofBits_zero_f32, EReal.coe_zero]⟩

/-- The float word `0x3F800000` is the real number one. -/
theorem RealValued.ones (s : Shape) : RealValued (s := s) (constant (F := Ideal) s .f32 0x3F800000#32) :=
  fun _ => ⟨1, by rw [constant_apply, Ideal.ofBits_one_f32, EReal.coe_one]⟩

/-- An accumulating scatter's entry is the operand's entry plus the sum of the updates that land on it: a real plus a
    finite sum of reals, whichever updates those are. -/
theorem RealValued.scatterAdd {s si su : Shape} {w : Nat} (d : ScatterDims s si su) {x : FVec Ideal s .f32}
    (hx : RealValued (s := s) x) (idx : IVec si w) {upd : FVec Ideal su .f32} (hu : RealValued (s := su) upd) :
    RealValued (s := s) (Host.scatterAdd d x idx upd) :=
  fun i => real_add (hx i) (real_sum _ _ hu)

/-- The guarded inverse square root.  At an index where `d` is the real `r` and `z` is zero, the comparison asks
    whether `0 < r`.  If so the entry is the inverse square root of a positive real, which is the real `(√r)⁻¹`
    (neither of the two corner cases `r < 0`, `r = 0` applies); if not, the entry is that of `z'`. -/
theorem real_invSqrt_where_pos {s : Shape} {d z z' : FVec Ideal s .f32} (hd : RealValued (s := s) d)
    (hz : ∀ i, z i = 0) (hz' : RealValued (s := s) z') :
    RealValued (s := s) (select (cmpf .ogt d z) (Host.rsqrt d) z') := by
  intro i
  obtain ⟨r, hr⟩ := hd i
  have hsel : select (cmpf .ogt d z) (Host.rsqrt d) z' i
      = Scalar.select (Ideal.cmp .ogt (d i) (z i)) (Ideal.rsqrt (d i)) (z' i) := rfl
  rw [hsel, hr, hz i]
  by_cases hpos : 0 < r
  · have hc : Ideal.cmp .ogt (r : EReal) 0 = 1#1 := by
      have : (0 : EReal) < (r : EReal) := by exact_mod_cast hpos
      simp [Ideal.cmp, this]
    rw [hc, select_one, Ideal.rsqrt_coe, if_neg (not_lt.mpr hpos.le), if_neg hpos.ne']
    exact ⟨_, rfl⟩
  · have hc : Ideal.cmp .ogt (r : EReal) 0 = 0#1 := by
      have : ¬ (0 : EReal) < (r : EReal) := by exact_mod_cast hpos
      simp [Ideal.cmp, this]
    rw [hc, select_zero]
    exact hz' i

/-- The zero scalar broadcast to any shape reads zero everywhere. -/
theorem zeros_apply (s : Shape) (h : S0.BroadcastsInDim s ![]) (i : s.Idx) :
    broadcastInDim s ![] h (constant (F := Ideal) S0 .f32 0x00000000#32) i = 0 := by
  show Ideal.ofBits .f32 0x00000000#32 = 0
  exact Ideal.ofBits_zero_f32

/-! ## The aggregation, from the inside out -/

/-- A degree is zero plus a finite sum of ones. -/
theorem RealValued.degree (e : IVec S2xE 32) : RealValued (s := SN) (degree (F := Ideal) e) :=
  RealValued.scatterAdd _ (RealValued.broadcastInDim _ _ (RealValued.zeros S0)) _
    (RealValued.broadcastInDim _ _ (RealValued.ones S0))

/-- The inverse square root of a degree is taken only where the degree is positive, and is zero elsewhere. -/
theorem RealValued.invSqrtDegree (e : IVec S2xE 32) : RealValued (s := SN) (invSqrtDegree (F := Ideal) e) :=
  real_invSqrt_where_pos (RealValued.degree e) (zeros_apply SN _)
    (RealValued.broadcastInDim _ _ (RealValued.zeros S0))

/-- An edge's weight is the product of two entries of the inverse square-root degrees, read at the edge's two ends. -/
theorem RealValued.edgeWeight (e : IVec S2xE 32) : RealValued (s := SM) (edgeWeight (F := Ideal) e) :=
  RealValued.mulf (RealValued.gather _ (RealValued.invSqrtDegree e) _) (RealValued.gather _ (RealValued.invSqrtDegree e) _)

/-- An aggregated entry is zero plus a finite sum of messages, each an entry of `p` times an edge's weight. -/
theorem RealValued.aggregate {p : FVec Ideal SNxD .f32} (hp : RealValued (s := SNxD) p) (e : IVec S2xE 32) :
    RealValued (s := SNxD) (aggregate (F := Ideal) p e) :=
  RealValued.scatterAdd _ (RealValued.broadcastInDim _ _ (RealValued.zeros S0)) _
    (RealValued.mulf (RealValued.gather _ hp _)
      (RealValued.broadcastInDim _ _ (RealValued.broadcastInDim _ _ (RealValued.edgeWeight e))))

/-- With real features, weights and bias, every entry of the biased aggregation of the projection is a real number,
    whatever the edge list. -/
theorem biased_aggregate_real (X : SNxD.Idx → EReal) (W : SDxD.Idx → EReal) (b : Fin 128 → EReal) (e : IVec S2xE 32)
    (hX : RealValued X) (hW : RealValued W) (hb : ∀ q, ∃ r : ℝ, b q = (r : EReal)) :
    RealValued (biased (aggregate (F := Ideal) (proj X W) e) b) :=
  fun i => real_add (RealValued.aggregate (RealValued.proj hX hW) e i) (hb (i 1))

end Spec

end
-- ==== Proof.PreReal.lean ====
/-
  Under the precondition every float argument holds real numbers.

  The precondition is the conjunction, over the five float arguments, of "every entry's absolute value is below
  plus infinity"; an extended real whose absolute value is below plus infinity is neither infinity, hence a real number.
-/
import proofs.«151737_j55224689492697_1_alg».proof.Defs
import proofs.«151737_j55224689492697_1_alg».proof.Proof.Gen.Pre_finite_inputs
import proofs.«151737_j55224689492697_1_alg».proof.Proof.Spec
import Idealize.ShloMosaic.Lib.ReduceAll

noncomputable section

namespace Cert.PreReal

open Idealize.ShloMosaic Idealize.ShloMosaic.ValueIdx

/-- The shape of a scalar has one index. -/
instance : Subsingleton Cert.Pre_finite_inputs.S_.Idx := ⟨fun a b => funext fun d => d.elim0⟩

/-- The float word `0x7F800000` is plus infinity. -/
theorem top_word : Ideal.ofBits .f32 0x7F800000#32 = ⊤ := by simp [Ideal.ofBits, Ideal.ieee]

/-- An extended real whose absolute value `max x (-x)` is strictly below plus infinity is a real number: at either
    infinity the absolute value is plus infinity itself. -/
theorem real_of_abs_lt_top (x : EReal) (h : Ideal.cmp .olt (max x (-x)) (Ideal.ofBits .f32 0x7F800000#32) = 1#1) :
    ∃ r : ℝ, x = (r : EReal) := by
  rw [top_word] at h
  induction x using EReal.rec with
  | bot => simp [Ideal.cmp] at h
  | coe r => exact ⟨r, rfl⟩
  | top => simp [Ideal.cmp] at h

/-- One conjunct of the precondition: if the conjunction over all entries of "the absolute value is below plus
    infinity" holds, every entry is a real number. -/
theorem real_of_all {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) :
    Spec.RealValued (s := s) x :=
  fun i => real_of_abs_lt_top (x i) (Host.reduce_andi_all _ _ hr hu ix0 e i)

/-- The precondition's predicate, at the extended reals, says that each of the five float arrays is real-valued. -/
theorem real_of_fn (x0 : FVec Ideal Cert.Pre_finite_inputs.S50000x128 .f32) (x1 : FVec Ideal Cert.Pre_finite_inputs.S128x128 .f32)
    (x2 x3 x4 : FVec Ideal Cert.Pre_finite_inputs.S128 .f32) (x5 : IVec Cert.Pre_finite_inputs.S2x640000 32)
    (h : Cert.Pre_finite_inputs.fn (F := Ideal) x0 x1 x2 x3 x4 x5 = (fun _ => 1#1)) :
    Spec.RealValued (s := Spec.SNxD) x0 ∧ Spec.RealValued (s := Spec.SDxD) x1
      ∧ Spec.RealValued (s := ⟨1, ![128]⟩) x2 ∧ Spec.RealValued (s := ⟨1, ![128]⟩) x3 ∧ Spec.RealValued (s := ⟨1, ![128]⟩) x4 := by
  -- the predicate at its one index, with the chain of its operations in view
  have h0 := congrFun h ValueIdx.ix0
  dsimp only [Cert.Pre_finite_inputs.fn, Cert.Pre_finite_inputs.fn_part1] at h0
  -- a conjunction of one-bit words is 1 exactly when both are: peel the five conjuncts off from the right
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all x0 _ _ _ h0', real_of_all x1 _ _ _ h1, real_of_all x2 _ _ _ h2, real_of_all x3 _ _ _ h3,
    real_of_all x4 _ _ _ h4⟩

end Cert.PreReal

end
-- ==== Proof.lean ====
/-
  One graph-convolution layer with batch normalisation, computed by three kernel regions among host operations, equals
  its plain reference over the extended reals.

  Both programs form the projection X W, aggregate its rows over the edges with the same host operations, add the
  bias, normalise each column by its mean and variance, scale, shift, clamp below at zero and add X.  They differ in
  two places.  The kernel program takes the projection and the column sums block by block, 25 blocks of 2000 nodes,
  where the reference contracts and sums whole arrays: on the extended reals addition is commutative and associative,
  so the blockwise sums are the whole sums.  And the kernel program writes a column's variance as the mean of the
  squares less the square of the mean, where the reference takes the mean of the squared deviations: the two agree on
  real numbers, and under the precondition (every float input is finite) every entry of the biased aggregation is a
  real number, being built from the inputs by finite sums, products and an inverse square root taken only of positive
  degrees.  The three frames are the generated ones (the reference's from its run); the idealization rewrote nothing.
-/
import proofs.«151737_j55224689492697_1_alg».proof.Defs
import proofs.«151737_j55224689492697_1_alg».proof.Proof.Gen.Kernel
import proofs.«151737_j55224689492697_1_alg».proof.Proof.Gen.Kernel.Frame
import proofs.«151737_j55224689492697_1_alg».proof.Proof.Gen.KernelIdeal
import proofs.«151737_j55224689492697_1_alg».proof.Proof.Gen.KernelIdeal.Frame
import proofs.«151737_j55224689492697_1_alg».proof.Proof.Gen.ReferenceIdeal
import proofs.«151737_j55224689492697_1_alg».proof.Proof.Gen.Pre_finite_inputs
import proofs.«151737_j55224689492697_1_alg».proof.Proof.KRun
import proofs.«151737_j55224689492697_1_alg».proof.Proof.KValue
import proofs.«151737_j55224689492697_1_alg».proof.Proof.RefRun
import proofs.«151737_j55224689492697_1_alg».proof.Proof.RefValue
import proofs.«151737_j55224689492697_1_alg».proof.Proof.Variance
import proofs.«151737_j55224689492697_1_alg».proof.Proof.Finite
import proofs.«151737_j55224689492697_1_alg».proof.Proof.PreReal
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result array: each side is the
    specification's normalised output of the same biased aggregation, the kernel's with the variance by moments and
    the reference's with the variance by centred squares, and the two variances agree because the biased aggregation
    of finite inputs is real-valued. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v54),
    Cert.KernelIdeal.GenRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  obtain ⟨r0, r1, r2, -, -⟩ := Cert.PreReal.real_of_fn _ _ _ _ _ _ (hpre c)
  refine (Cert.ReferenceIdeal.RefValue.result_eq m' c).trans ?_
  refine Eq.trans ?_ (Cert.KernelIdeal.Val.kernel_value m ρ c).symm
  rw [h0, h1, h2, h3, h4, h5]
  rw [Spec.varMoments_eq_varCentred _ (Spec.biased_aggregate_real _ _ _ _ r0 r1 (fun q => r2 (ix1 q)))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
